-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2 : Shape := ⟨2, ![32768, 2]⟩
abbrev S32768x896 : Shape := ⟨2, ![32768, 896]⟩
abbrev S32768x1 : Shape := ⟨2, ![32768, 1]⟩
abbrev S896x2688 : Shape := ⟨2, ![896, 2688]⟩
abbrev S2x1344 : Shape := ⟨2, ![2, 1344]⟩
abbrev S3x1344 : Shape := ⟨2, ![3, 1344]⟩
abbrev S448x448 : Shape := ⟨2, ![448, 448]⟩
abbrev S448 : Shape := ⟨1, ![448]⟩
abbrev S448x256 : Shape := ⟨2, ![448, 256]⟩
abbrev S256 : Shape := ⟨1, ![256]⟩
abbrev S896 : Shape := ⟨1, ![896]⟩
abbrev S_ : Shape := ⟨0, ![]⟩

class Facts : Prop where
  bcast_S_S32768x2 : S_.BroadcastsInDim S32768x2 (![] : Fin 0 → Fin S32768x2.rank)
  reducesTo_S32768x2_S_d0_1 : S32768x2.ReducesTo [0, 1] S_
  h_S_ : 0 < S_.numel
  bcast_S_S32768x896 : S_.BroadcastsInDim S32768x896 (![] : Fin 0 → Fin S32768x896.rank)
  reducesTo_S32768x896_S_d0_1 : S32768x896.ReducesTo [0, 1] S_
  bcast_S_S32768x1 : S_.BroadcastsInDim S32768x1 (![] : Fin 0 → Fin S32768x1.rank)
  reducesTo_S32768x1_S_d0_1 : S32768x1.ReducesTo [0, 1] S_
  bcast_S_S896x2688 : S_.BroadcastsInDim S896x2688 (![] : Fin 0 → Fin S896x2688.rank)
  reducesTo_S896x2688_S_d0_1 : S896x2688.ReducesTo [0, 1] S_
  bcast_S_S2x1344 : S_.BroadcastsInDim S2x1344 (![] : Fin 0 → Fin S2x1344.rank)
  reducesTo_S2x1344_S_d0_1 : S2x1344.ReducesTo [0, 1] S_
  bcast_S_S3x1344 : S_.BroadcastsInDim S3x1344 (![] : Fin 0 → Fin S3x1344.rank)
  reducesTo_S3x1344_S_d0_1 : S3x1344.ReducesTo [0, 1] S_
  bcast_S_S448x448 : S_.BroadcastsInDim S448x448 (![] : Fin 0 → Fin S448x448.rank)
  reducesTo_S448x448_S_d0_1 : S448x448.ReducesTo [0, 1] S_
  bcast_S_S448 : S_.BroadcastsInDim S448 (![] : Fin 0 → Fin S448.rank)
  reducesTo_S448_S_d0 : S448.ReducesTo [0] S_
  bcast_S_S448x256 : S_.BroadcastsInDim S448x256 (![] : Fin 0 → Fin S448x256.rank)
  reducesTo_S448x256_S_d0_1 : S448x256.ReducesTo [0, 1] S_
  bcast_S_S256 : S_.BroadcastsInDim S256 (![] : Fin 0 → Fin S256.rank)
  reducesTo_S256_S_d0 : S256.ReducesTo [0] S_
  bcast_S_S896 : S_.BroadcastsInDim S896 (![] : Fin 0 → Fin S896.rank)
  reducesTo_S896_S_d0 : S896.ReducesTo [0] S_

variable [Facts]

def fn_part4 {F : FTy → Type} [FloatOps F] (main_arg14 : FVec F S896 .f32) (main_arg15 : FVec F S896 .f32) (main_arg16 : FVec F S896 .f32) (main_v63 : IVec S_ 1) (main_v67 : IVec S_ 1) : IVec S_ 1 :=
  let main_v68 : IVec S_ 1 := andi main_v63 main_v67
  let main_v69 : FVec F S896 .f32 := Host.absf main_arg14
  let main_cst_26 : FVec F S_ .f32 := constant S_ .f32 0x7F800000#32
  let main_v70 : FVec F S896 .f32 := broadcastInDim S896 ![] bcast_S_S896 main_cst_26
  let main_v71 : IVec S896 1 := cmpf .olt main_v69 main_v70
  let main_c_27 : IVec S_ 1 := constantI S_ 1 1#1
  let main_v72 : IVec S_ 1 := (fun x v => Host.reduce IntOp.andi x v reducesTo_S896_S_d0 h_S_) main_v71 main_c_27
  let main_v73 : IVec S_ 1 := andi main_v68 main_v72
  let main_v74 : FVec F S896 .f32 := Host.absf main_arg15
  let main_cst_28 : FVec F S_ .f32 := constant S_ .f32 0x7F800000#32
  let main_v75 : FVec F S896 .f32 := broadcastInDim S896 ![] bcast_S_S896 main_cst_28
  let main_v76 : IVec S896 1 := cmpf .olt main_v74 main_v75
  let main_c_29 : IVec S_ 1 := constantI S_ 1 1#1
  let main_v77 : IVec S_ 1 := (fun x v => Host.reduce IntOp.andi x v reducesTo_S896_S_d0 h_S_) main_v76 main_c_29
  let main_v78 : IVec S_ 1 := andi main_v73 main_v77
  let main_v79 : FVec F S896 .f32 := Host.absf main_arg16
  let main_cst_30 : FVec F S_ .f32 := constant S_ .f32 0x7F800000#32
  let main_v80 : FVec F S896 .f32 := broadcastInDim S896 ![] bcast_S_S896 main_cst_30
  let main_v81 : IVec S896 1 := cmpf .olt main_v79 main_v80
  let main_c_31 : IVec S_ 1 := constantI S_ 1 1#1
  let main_v82 : IVec S_ 1 := (fun x v => Host.reduce IntOp.andi x v reducesTo_S896_S_d0 h_S_) main_v81 main_c_31
  let main_v83 : IVec S_ 1 := andi main_v78 main_v82
  main_v83

def fn_part3 {F : FTy → Type} [FloatOps F] (main_arg11 : FVec F S448 .f32) (main_arg12 : FVec F S448x256 .f32) (main_arg13 : FVec F S256 .f32) (main_arg14 : FVec F S896 .f32) (main_arg15 : FVec F S896 .f32) (main_arg16 : FVec F S896 .f32) (main_v48 : IVec S_ 1) (main_v49 : FVec F S448x448 .f32) (main_v50 : FVec F S448x448 .f32) : IVec S_ 1 :=
  let main_v51 : IVec S448x448 1 := cmpf .olt main_v49 main_v50
  let main_c_19 : IVec S_ 1 := constantI S_ 1 1#1
  let main_v52 : IVec S_ 1 := (fun x v => Host.reduce IntOp.andi x v reducesTo_S448x448_S_d0_1 h_S_) main_v51 main_c_19
  let main_v53 : IVec S_ 1 := andi main_v48 main_v52
  let main_v54 : FVec F S448 .f32 := Host.absf main_arg11
  let main_cst_20 : FVec F S_ .f32 := constant S_ .f32 0x7F800000#32
  let main_v55 : FVec F S448 .f32 := broadcastInDim S448 ![] bcast_S_S448 main_cst_20
  let main_v56 : IVec S448 1 := cmpf .olt main_v54 main_v55
  let main_c_21 : IVec S_ 1 := constantI S_ 1 1#1
  let main_v57 : IVec S_ 1 := (fun x v => Host.reduce IntOp.andi x v reducesTo_S448_S_d0 h_S_) main_v56 main_c_21
  let main_v58 : IVec S_ 1 := andi main_v53 main_v57
  let main_v59 : FVec F S448x256 .f32 := Host.absf main_arg12
  let main_cst_22 : FVec F S_ .f32 := constant S_ .f32 0x7F800000#32
  let main_v60 : FVec F S448x256 .f32 := broadcastInDim S448x256 ![] bcast_S_S448x256 main_cst_22
  let main_v61 : IVec S448x256 1 := cmpf .olt main_v59 main_v60
  let main_c_23 : IVec S_ 1 := constantI S_ 1 1#1
  let main_v62 : IVec S_ 1 := (fun x v => Host.reduce IntOp.andi x v reducesTo_S448x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_v63 main_v67

def fn_part2 {F : FTy → Type} [FloatOps F] (main_arg7 : FVec F S448 .f32) (main_arg8 : FVec F S448x256 .f32) (main_arg9 : FVec F S256 .f32) (main_arg10 : FVec F S448x448 .f32) (main_arg11 : FVec F S448 .f32) (main_arg12 : FVec F S448x256 .f32) (main_arg13 : FVec F S256 .f32) (main_arg14 : FVec F S896 .f32) (main_arg15 : FVec F S896 .f32) (main_arg16 : FVec F S896 .f32) (main_v33 : IVec S_ 1) : IVec S_ 1 :=
  let main_v34 : FVec F S448 .f32 := Host.absf main_arg7
  let main_cst_12 : FVec F S_ .f32 := constant S_ .f32 0x7F800000#32
  let main_v35 : FVec F S448 .f32 := broadcastInDim S448 ![] bcast_S_S448 main_cst_12
  let main_v36 : IVec S448 1 := cmpf .olt main_v34 main_v35
  let main_c_13 : IVec S_ 1 := constantI S_ 1 1#1
  let main_v37 : IVec S_ 1 := (fun x v => Host.reduce IntOp.andi x v reducesTo_S448_S_d0 h_S_) main_v36 main_c_13
  let main_v38 : IVec S_ 1 := andi main_v33 main_v37
  let main_v39 : FVec F S448x256 .f32 := Host.absf main_arg8
  let main_cst_14 : FVec F S_ .f32 := constant S_ .f32 0x7F800000#32
  let main_v40 : FVec F S448x256 .f32 := broadcastInDim S448x256 ![] bcast_S_S448x256 main_cst_14
  let main_v41 : IVec S448x256 1 := cmpf .olt main_v39 main_v40
  let main_c_15 : IVec S_ 1 := constantI S_ 1 1#1
  let main_v42 : IVec S_ 1 := (fun x v => Host.reduce IntOp.andi x v reducesTo_S448x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S448x448 .f32 := Host.absf main_arg10
  let main_cst_18 : FVec F S_ .f32 := constant S_ .f32 0x7F800000#32
  let main_v50 : FVec F S448x448 .f32 := broadcastInDim S448x448 ![] bcast_S_S448x448 main_cst_18
  fn_part3 (F := F) main_arg11 main_arg12 main_arg13 main_arg14 main_arg15 main_arg16 main_v48 main_v49 main_v50

def fn_part1 {F : FTy → Type} [FloatOps F] (main_arg4 : FVec F S2x1344 .f32) (main_arg5 : FVec F S3x1344 .f32) (main_arg6 : FVec F S448x448 .f32) (main_arg7 : FVec F S448 .f32) (main_arg8 : FVec F S448x256 .f32) (main_arg9 : FVec F S256 .f32) (main_arg10 : FVec F S448x448 .f32) (main_arg11 : FVec F S448 .f32) (main_arg12 : FVec F S448x256 .f32) (main_arg13 : FVec F S256 .f32) (main_arg14 : FVec F S896 .f32) (main_arg15 : FVec F S896 .f32) (main_arg16 : FVec F S896 .f32) (main_v13 : IVec S_ 1) (main_v16 : IVec S896x2688 1) : IVec S_ 1 :=
  let main_c_5 : IVec S_ 1 := constantI S_ 1 1#1
  let main_v17 : IVec S_ 1 := (fun x v => Host.reduce IntOp.andi x v reducesTo_S896x2688_S_d0_1 h_S_) main_v16 main_c_5
  let main_v18 : IVec S_ 1 := andi main_v13 main_v17
  let main_v19 : FVec F S2x1344 .f32 := Host.absf main_arg4
  let main_cst_6 : FVec F S_ .f32 := constant S_ .f32 0x7F800000#32
  let main_v20 : FVec F S2x1344 .f32 := broadcastInDim S2x1344 ![] bcast_S_S2x1344 main_cst_6
  let main_v21 : IVec S2x1344 1 := cmpf .olt main_v19 main_v20
  let main_c_7 : IVec S_ 1 := constantI S_ 1 1#1
  let main_v22 : IVec S_ 1 := (fun x v => Host.reduce IntOp.andi x v reducesTo_S2x1344_S_d0_1 h_S_) main_v21 main_c_7
  let main_v23 : IVec S_ 1 := andi main_v18 main_v22
  let main_v24 : FVec F S3x1344 .f32 := Host.absf main_arg5
  let main_cst_8 : FVec F S_ .f32 := constant S_ .f32 0x7F800000#32
  let main_v25 : FVec F S3x1344 .f32 := broadcastInDim S3x1344 ![] bcast_S_S3x1344 main_cst_8
  let main_v26 : IVec S3x1344 1 := cmpf .olt main_v24 main_v25
  let main_c_9 : IVec S_ 1 := constantI S_ 1 1#1
  let main_v27 : IVec S_ 1 := (fun x v => Host.reduce IntOp.andi x v reducesTo_S3x1344_S_d0_1 h_S_) main_v26 main_c_9
  let main_v28 : IVec S_ 1 := andi main_v23 main_v27
  let main_v29 : FVec F S448x448 .f32 := Host.absf main_arg6
  let main_cst_10 : FVec F S_ .f32 := constant S_ .f32 0x7F800000#32
  let main_v30 : FVec F S448x448 .f32 := broadcastInDim S448x448 ![] bcast_S_S448x448 main_cst_10
  let main_v31 : IVec S448x448 1 := cmpf .olt main_v29 main_v30
  let main_c_11 : IVec S_ 1 := constantI S_ 1 1#1
  let main_v32 : IVec S_ 1 := (fun x v => Host.reduce IntOp.andi x v reducesTo_S448x448_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S32768x2 .f32) (main_arg1 : FVec F S32768x896 .f32) (main_arg2 : FVec F S32768x1 .f32) (main_arg3 : FVec F S896x2688 .f32) (main_arg4 : FVec F S2x1344 .f32) (main_arg5 : FVec F S3x1344 .f32) (main_arg6 : FVec F S448x448 .f32) (main_arg7 : FVec F S448 .f32) (main_arg8 : FVec F S448x256 .f32) (main_arg9 : FVec F S256 .f32) (main_arg10 : FVec F S448x448 .f32) (main_arg11 : FVec F S448 .f32) (main_arg12 : FVec F S448x256 .f32) (main_arg13 : FVec F S256 .f32) (main_arg14 : FVec F S896 .f32) (main_arg15 : FVec F S896 .f32) (main_arg16 : FVec F S896 .f32) : IVec S_ 1 :=
  let main_v0 : FVec F S32768x2 .f32 := Host.absf main_arg0
  let main_cst : FVec F S_ .f32 := constant S_ .f32 0x7F800000#32
  let main_v1 : FVec F S32768x2 .f32 := broadcastInDim S32768x2 ![] bcast_S_S32768x2 main_cst
  let main_v2 : IVec S32768x2 1 := cmpf .olt main_v0 main_v1
  let main_c : IVec S_ 1 := constantI S_ 1 1#1
  let main_v3 : IVec S_ 1 := (fun x v => Host.reduce IntOp.andi x v reducesTo_S32768x2_S_d0_1 h_S_) main_v2 main_c
  let main_v4 : FVec F S32768x896 .f32 := Host.absf main_arg1
  let main_cst_0 : FVec F S_ .f32 := constant S_ .f32 0x7F800000#32
  let main_v5 : FVec F S32768x896 .f32 := broadcastInDim S32768x896 ![] bcast_S_S32768x896 main_cst_0
  let main_v6 : IVec S32768x896 1 := cmpf .olt main_v4 main_v5
  let main_c_1 : IVec S_ 1 := constantI S_ 1 1#1
  let main_v7 : IVec S_ 1 := (fun x v => Host.reduce IntOp.andi x v reducesTo_S32768x896_S_d0_1 h_S_) main_v6 main_c_1
  let main_v8 : IVec S_ 1 := andi main_v3 main_v7
  let main_v9 : FVec F S32768x1 .f32 := Host.absf main_arg2
  let main_cst_2 : FVec F S_ .f32 := constant S_ .f32 0x7F800000#32
  let main_v10 : FVec F S32768x1 .f32 := broadcastInDim S32768x1 ![] bcast_S_S32768x1 main_cst_2
  let main_v11 : IVec S32768x1 1 := cmpf .olt main_v9 main_v10
  let main_c_3 : IVec S_ 1 := constantI S_ 1 1#1
  let main_v12 : IVec S_ 1 := (fun x v => Host.reduce IntOp.andi x v reducesTo_S32768x1_S_d0_1 h_S_) main_v11 main_c_3
  let main_v13 : IVec S_ 1 := andi main_v8 main_v12
  let main_v14 : FVec F S896x2688 .f32 := Host.absf main_arg3
  let main_cst_4 : FVec F S_ .f32 := constant S_ .f32 0x7F800000#32
  let main_v15 : FVec F S896x2688 .f32 := broadcastInDim S896x2688 ![] bcast_S_S896x2688 main_cst_4
  let main_v16 : IVec S896x2688 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S32768x2 : Shape := ⟨2, ![32768, 2]⟩
abbrev S32768x896 : Shape := ⟨2, ![32768, 896]⟩
abbrev S32768x1 : Shape := ⟨2, ![32768, 1]⟩
abbrev S896x2688 : Shape := ⟨2, ![896, 2688]⟩
abbrev S2x1344 : Shape := ⟨2, ![2, 1344]⟩
abbrev S3x1344 : Shape := ⟨2, ![3, 1344]⟩
abbrev S448x448 : Shape := ⟨2, ![448, 448]⟩
abbrev S448 : Shape := ⟨1, ![448]⟩
abbrev S448x256 : Shape := ⟨2, ![448, 256]⟩
abbrev S256 : Shape := ⟨1, ![256]⟩
abbrev S896 : Shape := ⟨1, ![896]⟩
abbrev S32768x256 : Shape := ⟨2, ![32768, 256]⟩
abbrev S256x2 : Shape := ⟨2, ![256, 2]⟩
abbrev S256x896 : Shape := ⟨2, ![256, 896]⟩
abbrev S256x1 : Shape := ⟨2, ![256, 1]⟩
abbrev S256x256 : Shape := ⟨2, ![256, 256]⟩
abbrev S256x3 : Shape := ⟨2, ![256, 3]⟩
abbrev S256x2688 : Shape := ⟨2, ![256, 2688]⟩
abbrev S256x1344 : Shape := ⟨2, ![256, 1344]⟩
abbrev S256x448 : Shape := ⟨2, ![256, 448]⟩
abbrev S1x896 : Shape := ⟨2, ![1, 896]⟩
abbrev S1x448 : Shape := ⟨2, ![1, 448]⟩
abbrev S1x256 : Shape := ⟨2, ![1, 256]⟩

abbrev nBuf : Space → Nat
  | .hbm => 27
  | .vmem => 26
  | .smem => 0
  | _ => 0

abbrev bufTy : (tb : Table) → Fin (tcTables nBuf tb) → BufTy
  | .hbm, ⟨0, _⟩ => ⟨S32768x2, .f32⟩
  | .hbm, ⟨1, _⟩ => ⟨S32768x896, .f32⟩
  | .hbm, ⟨2, _⟩ => ⟨S32768x1, .f32⟩
  | .hbm, ⟨3, _⟩ => ⟨S896x2688, .f32⟩
  | .hbm, ⟨4, _⟩ => ⟨S2x1344, .f32⟩
  | .hbm, ⟨5, _⟩ => ⟨S3x1344, .f32⟩
  | .hbm, ⟨6, _⟩ => ⟨S448x448, .f32⟩
  | .hbm, ⟨7, _⟩ => ⟨S448, .f32⟩
  | .hbm, ⟨8, _⟩ => ⟨S448x256, .f32⟩
  | .hbm, ⟨9, _⟩ => ⟨S256, .f32⟩
  | .hbm, ⟨10, _⟩ => ⟨S448x448, .f32⟩
  | .hbm, ⟨11, _⟩ => ⟨S448, .f32⟩
  | .hbm, ⟨12, _⟩ => ⟨S448x256, .f32⟩
  | .hbm, ⟨13, _⟩ => ⟨S256, .f32⟩
  | .hbm, ⟨14, _⟩ => ⟨S896, .f32⟩
  | .hbm, ⟨15, _⟩ => ⟨S896, .f32⟩
  | .hbm, ⟨16, _⟩ => ⟨S896, .f32⟩
  | .hbm, ⟨17, _⟩ => ⟨S896x2688, .bf16⟩
  | .hbm, ⟨18, _⟩ => ⟨S2x1344, .bf16⟩
  | .hbm, ⟨19, _⟩ => ⟨S3x1344, .bf16⟩
  | .hbm, ⟨20, _⟩ => ⟨S448x448, .bf16⟩
  | .hbm, ⟨21, _⟩ => ⟨S448x256, .bf16⟩
  | .hbm, ⟨22, _⟩ => ⟨S448x448, .bf16⟩
  | .hbm, ⟨23, _⟩ => ⟨S448x256, .bf16⟩
  | .hbm, ⟨24, _⟩ => ⟨S32768x256, .f32⟩
  | .hbm, ⟨25, _⟩ => ⟨S32768x256, .f32⟩
  | .hbm, ⟨26, _⟩ => ⟨S32768x896, .f32⟩
  | .local _ .vmem, ⟨0, _⟩ => ⟨S256x2, .f32⟩
  | .local _ .vmem, ⟨1, _⟩ => ⟨S256x2, .f32⟩
  | .local _ .vmem, ⟨2, _⟩ => ⟨S256x896, .f32⟩
  | .local _ .vmem, ⟨3, _⟩ => ⟨S256x896, .f32⟩
  | .local _ .vmem, ⟨4, _⟩ => ⟨S256x1, .f32⟩
  | .local _ .vmem, ⟨5, _⟩ => ⟨S256x1, .f32⟩
  | .local _ .vmem, ⟨6, _⟩ => ⟨S896x2688, .bf16⟩
  | .local _ .vmem, ⟨7, _⟩ => ⟨S2x1344, .bf16⟩
  | .local _ .vmem, ⟨8, _⟩ => ⟨S3x1344, .bf16⟩
  | .local _ .vmem, ⟨9, _⟩ => ⟨S448x448, .bf16⟩
  | .local _ .vmem, ⟨10, _⟩ => ⟨S448, .f32⟩
  | .local _ .vmem, ⟨11, _⟩ => ⟨S448x256, .bf16⟩
  | .local _ .vmem, ⟨12, _⟩ => ⟨S256, .f32⟩
  | .local _ .vmem, ⟨13, _⟩ => ⟨S448x448, .bf16⟩
  | .local _ .vmem, ⟨14, _⟩ => ⟨S448, .f32⟩
  | .local _ .vmem, ⟨15, _⟩ => ⟨S448x256, .bf16⟩
  | .local _ .vmem, ⟨16, _⟩ => ⟨S256, .f32⟩
  | .local _ .vmem, ⟨17, _⟩ => ⟨S896, .f32⟩
  | .local _ .vmem, ⟨18, _⟩ => ⟨S896, .f32⟩
  | .local _ .vmem, ⟨19, _⟩ => ⟨S896, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x896, .f32⟩
  | .local _ .vmem, ⟨25, _⟩ => ⟨S256x896, .f32⟩
  | _, _ => ⟨S32768x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7_0 : Ref sig .tc := ⟨.hbm, 24, rfl⟩
abbrev main_v7_1 : Ref sig .tc := ⟨.hbm, 25, rfl⟩
abbrev main_v7_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S896x2688 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1344 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1344 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S448x448 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S448 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S448x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S448x448 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S448 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S448x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S896 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S896 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S896 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x896 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  bitsLt_bf16_f32 : FTy.bits .bf16 < FTy.bits .f32
  inb_S256x896_S256x896_0_0 : ∀ a, (![0, 0] : Fin 2 → Nat) a + S256x896.size a ≤ S256x896.size a
  h_S256x896 : 0 < S256x896.numel
  inb_S256x2_S256x2_0_0 : ∀ a, (![0, 0] : Fin 2 → Nat) a + S256x2.size a ≤ S256x2.size a
  h_S256x2 : 0 < S256x2.numel
  inb_S256x1_S256x1_0_0 : ∀ a, (![0, 0] : Fin 2 → Nat) a + S256x1.size a ≤ S256x1.size a
  h_S256x1 : 0 < S256x1.numel
  concatenates_S256x2_S256x1_S256x3_d1 : Shape.Concatenates [S256x2, S256x1] S256x3 1
  inb_S896x2688_S896x2688_0_0 : ∀ a, (![0, 0] : Fin 2 → Nat) a + S896x2688.size a ≤ S896x2688.size a
  h_S896x2688 : 0 < S896x2688.numel
  shapeCasts_S896x2688_S896x2688 : S896x2688.ShapeCasts S896x2688
  slices_S256x2688_o0_0_S256x896 : S256x2688.Slices ![0, 0] S256x896
  slices_S256x2688_o0_896_S256x896 : S256x2688.Slices ![0, 896] S256x896
  slices_S256x2688_o0_1792_S256x896 : S256x2688.Slices ![0, 1792] S256x896
  inb_S2x1344_S2x1344_0_0 : ∀ a, (![0, 0] : Fin 2 → Nat) a + S2x1344.size a ≤ S2x1344.size a
  h_S2x1344 : 0 < S2x1344.numel
  shapeCasts_S2x1344_S2x1344 : S2x1344.ShapeCasts S2x1344
  slices_S256x1344_o0_0_S256x448 : S256x1344.Slices ![0, 0] S256x448
  slices_S256x1344_o0_448_S256x448 : S256x1344.Slices ![0, 448] S256x448
  slices_S256x1344_o0_896_S256x448 : S256x1344.Slices ![0, 896] S256x448
  inb_S3x1344_S3x1344_0_0 : ∀ a, (![0, 0] : Fin 2 → Nat) a + S3x1344.size a ≤ S3x1344.size a
  h_S3x1344 : 0 < S3x1344.numel
  shapeCasts_S3x1344_S3x1344 : S3x1344.ShapeCasts S3x1344
  concatenates_S256x448_S256x448_S256x896_d1 : Shape.Concatenates [S256x448, S256x448] S256x896 1
  inb_S896_S896_0 : ∀ a, (![0] : Fin 1 → Nat) a + S896.size a ≤ S896.size a
  h_S896 : 0 < S896.numel
  shapeCasts_S896_S1x896 : S896.ShapeCasts S1x896
  broadcasts_S1x896_S256x896 : S1x896.Broadcasts S256x896
  slices_S256x896_o0_0_S256x448 : S256x896.Slices ![0, 0] S256x448
  slices_S256x896_o0_448_S256x448 : S256x896.Slices ![0, 448] S256x448
  inb_S448x448_S448x448_0_0 : ∀ a, (![0, 0] : Fin 2 → Nat) a + S448x448.size a ≤ S448x448.size a
  h_S448x448 : 0 < S448x448.numel
  shapeCasts_S448x448_S448x448 : S448x448.ShapeCasts S448x448
  inb_S448_S448_0 : ∀ a, (![0] : Fin 1 → Nat) a + S448.size a ≤ S448.size a
  h_S448 : 0 < S448.numel
  shapeCasts_S448_S1x448 : S448.ShapeCasts S1x448
  broadcasts_S1x448_S256x448 : S1x448.Broadcasts S256x448
  inb_S448x256_S448x256_0_0 : ∀ a, (![0, 0] : Fin 2 → Nat) a + S448x256.size a ≤ S448x256.size a
  h_S448x256 : 0 < S448x256.numel
  shapeCasts_S448x256_S448x256 : S448x256.ShapeCasts S448x256
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x896_S896x2688_S256x2688_1_0_0_1_n_n_wf : DotDims.WF S256x896 S896x2688 S256x2688 [1] [0] [0] [1] [] []
  dot_S256x2_S2x1344_S256x1344_1_0_0_1_n_n_wf : DotDims.WF S256x2 S2x1344 S256x1344 [1] [0] [0] [1] [] []
  dot_S256x3_S3x1344_S256x1344_1_0_0_1_n_n_wf : DotDims.WF S256x3 S3x1344 S256x1344 [1] [0] [0] [1] [] []
  dot_S256x448_S448x448_S256x448_1_0_0_1_n_n_wf : DotDims.WF S256x448 S448x448 S256x448 [1] [0] [0] [1] [] []
  dot_S256x448_S448x256_S256x256_1_0_0_1_n_n_wf : DotDims.WF S256x448 S448x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2.size a ≤ S32768x2.size a
  hwx0_0 : ∀ i : grid0.Coords, EltTy.bits .f32 = 32 ∨ (Rect.block (s := S32768x2) S256x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x896.size a ≤ S32768x896.size a
  hwx0_1 : ∀ i : grid0.Coords, EltTy.bits .f32 = 32 ∨ (Rect.block (s := S32768x896) S256x896.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S32768x1.size a
  hwx0_2 : ∀ i : grid0.Coords, EltTy.bits .f32 = 32 ∨ (Rect.block (s := S32768x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S896x2688.size a ≤ S896x2688.size a
  hwx0_3 : ∀ i : grid0.Coords, EltTy.bits .bf16 = 32 ∨ (Rect.block (s := S896x2688) S896x2688.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x1344.size a ≤ S2x1344.size a
  hwx0_4 : ∀ i : grid0.Coords, EltTy.bits .bf16 = 32 ∨ (Rect.block (s := S2x1344) S2x1344.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x1344.size a ≤ S3x1344.size a
  hwx0_5 : ∀ i : grid0.Coords, EltTy.bits .bf16 = 32 ∨ (Rect.block (s := S3x1344) S3x1344.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S448x448.size a ≤ S448x448.size a
  hwx0_6 : ∀ i : grid0.Coords, EltTy.bits .bf16 = 32 ∨ (Rect.block (s := S448x448) S448x448.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S448.size a ≤ S448.size a
  hwx0_7 : ∀ i : grid0.Coords, EltTy.bits .f32 = 32 ∨ (Rect.block (s := S448) S448.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S448x256.size a ≤ S448x256.size a
  hwx0_8 : ∀ i : grid0.Coords, EltTy.bits .bf16 = 32 ∨ (Rect.block (s := S448x256) S448x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S448x448.size a ≤ S448x448.size a
  hwx0_10 : ∀ i : grid0.Coords, EltTy.bits .bf16 = 32 ∨ (Rect.block (s := S448x448) S448x448.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S448.size a ≤ S448.size a
  hwx0_11 : ∀ i : grid0.Coords, EltTy.bits .f32 = 32 ∨ (Rect.block (s := S448) S448.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S448x256.size a ≤ S448x256.size a
  hwx0_12 : ∀ i : grid0.Coords, EltTy.bits .bf16 = 32 ∨ (Rect.block (s := S448x256) S448x256.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256.size a ≤ S256.size a
  hwx0_13 : ∀ i : grid0.Coords, EltTy.bits .f32 = 32 ∨ (Rect.block (s := S256) S256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S896.size a ≤ S896.size a
  hwx0_14 : ∀ i : grid0.Coords, EltTy.bits .f32 = 32 ∨ (Rect.block (s := S896) S896.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S896.size a ≤ S896.size a
  hwx0_15 : ∀ i : grid0.Coords, EltTy.bits .f32 = 32 ∨ (Rect.block (s := S896) S896.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S896.size a ≤ S896.size a
  hwx0_16 : ∀ i : grid0.Coords, EltTy.bits .f32 = 32 ∨ (Rect.block (s := S896) S896.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S256x256.size a ≤ S32768x256.size a
  hwx0_17 : ∀ i : grid0.Coords, EltTy.bits .f32 = 32 ∨ (Rect.block (s := S32768x256) S256x256.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S256x256.size a ≤ S32768x256.size a
  hwx0_18 : ∀ i : grid0.Coords, EltTy.bits .f32 = 32 ∨ (Rect.block (s := S32768x256) S256x256.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S256x896.size a ≤ S32768x896.size a
  hwx0_19 : ∀ i : grid0.Coords, EltTy.bits .f32 = 32 ∨ (Rect.block (s := S32768x896) S256x896.size (cc0_transform_19 i) (hinb0_19 i)).WholeWords (EltTy.packing .f32)

variable [Facts₀]

def dot_S256x896_S896x2688_S256x2688_1_0_0_1_n_n : DotDims S256x896 S896x2688 S256x2688 where
  lhsContracting := [1]
  rhsContracting := [0]
  lhsNonContracting := [0]
  rhsNonContracting := [1]
  lhsBatch := []
  rhsBatch := []
  wf := dot_S256x896_S896x2688_S256x2688_1_0_0_1_n_n_wf
def dot_S256x2_S2x1344_S256x1344_1_0_0_1_n_n : DotDims S256x2 S2x1344 S256x1344 where
  lhsContracting := [1]
  rhsContracting := [0]
  lhsNonContracting := [0]
  rhsNonContracting := [1]
  lhsBatch := []
  rhsBatch := []
  wf := dot_S256x2_S2x1344_S256x1344_1_0_0_1_n_n_wf
def dot_S256x3_S3x1344_S256x1344_1_0_0_1_n_n : DotDims S256x3 S3x1344 S256x1344 where
  lhsContracting := [1]
  rhsContracting := [0]
  lhsNonContracting := [0]
  rhsNonContracting := [1]
  lhsBatch := []
  rhsBatch := []
  wf := dot_S256x3_S3x1344_S256x1344_1_0_0_1_n_n_wf
def dot_S256x448_S448x448_S256x448_1_0_0_1_n_n : DotDims S256x448 S448x448 S256x448 where
  lhsContracting := [1]
  rhsContracting := [0]
  lhsNonContracting := [0]
  rhsNonContracting := [1]
  lhsBatch := []
  rhsBatch := []
  wf := dot_S256x448_S448x448_S256x448_1_0_0_1_n_n_wf
def dot_S256x448_S448x256_S256x256_1_0_0_1_n_n : DotDims S256x448 S448x256 S256x256 where
  lhsContracting := [1]
  rhsContracting := [0]
  lhsNonContracting := [0]
  rhsNonContracting := [1]
  lhsBatch := []
  rhsBatch := []
  wf := dot_S256x448_S448x256_S256x256_1_0_0_1_n_n_wf

abbrev win0_0 : Pipeline.Window sig grid0 :=
  Pipeline.Window.ofSpec (Memref.whole main_arg0) S256x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x896.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S896x2688.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2x1344.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S3x1344.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S448x448.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S448.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S448x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S448x448.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S448.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S448x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S896.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S896.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S896.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v7_0) S256x256.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v7_1) S256x256.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v7_2) S256x896.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S32768x2 : Shape := ⟨2, ![32768, 2]⟩
abbrev S32768x896 : Shape := ⟨2, ![32768, 896]⟩
abbrev S32768x1 : Shape := ⟨2, ![32768, 1]⟩
abbrev S896x2688 : Shape := ⟨2, ![896, 2688]⟩
abbrev S2x1344 : Shape := ⟨2, ![2, 1344]⟩
abbrev S3x1344 : Shape := ⟨2, ![3, 1344]⟩
abbrev S448x448 : Shape := ⟨2, ![448, 448]⟩
abbrev S448 : Shape := ⟨1, ![448]⟩
abbrev S448x256 : Shape := ⟨2, ![448, 256]⟩
abbrev S256 : Shape := ⟨1, ![256]⟩
abbrev S896 : Shape := ⟨1, ![896]⟩
abbrev S32768x2688 : Shape := ⟨2, ![32768, 2688]⟩
abbrev S32768x1344 : Shape := ⟨2, ![32768, 1344]⟩
abbrev S32768x448 : Shape := ⟨2, ![32768, 448]⟩
abbrev S32768x3 : Shape := ⟨2, ![32768, 3]⟩
abbrev S1x896 : Shape := ⟨2, ![1, 896]⟩
abbrev S_ : Shape := ⟨0, ![]⟩
abbrev S1x448 : Shape := ⟨2, ![1, 448]⟩
abbrev S32768x256 : Shape := ⟨2, ![32768, 256]⟩
abbrev S1x256 : Shape := ⟨2, ![1, 256]⟩

abbrev nBuf : Space → Nat
  | .hbm => 93
  | .vmem => 0
  | .smem => 0
  | _ => 0

abbrev bufTy : (tb : Table) → Fin (tcTables nBuf tb) → BufTy
  | .hbm, ⟨0, _⟩ => ⟨S32768x2, .f32⟩
  | .hbm, ⟨1, _⟩ => ⟨S32768x896, .f32⟩
  | .hbm, ⟨2, _⟩ => ⟨S32768x1, .f32⟩
  | .hbm, ⟨3, _⟩ => ⟨S896x2688, .f32⟩
  | .hbm, ⟨4, _⟩ => ⟨S2x1344, .f32⟩
  | .hbm, ⟨5, _⟩ => ⟨S3x1344, .f32⟩
  | .hbm, ⟨6, _⟩ => ⟨S448x448, .f32⟩
  | .hbm, ⟨7, _⟩ => ⟨S448, .f32⟩
  | .hbm, ⟨8, _⟩ => ⟨S448x256, .f32⟩
  | .hbm, ⟨9, _⟩ => ⟨S256, .f32⟩
  | .hbm, ⟨10, _⟩ => ⟨S448x448, .f32⟩
  | .hbm, ⟨11, _⟩ => ⟨S448, .f32⟩
  | .hbm, ⟨12, _⟩ => ⟨S448x256, .f32⟩
  | .hbm, ⟨13, _⟩ => ⟨S256, .f32⟩
  | .hbm, ⟨14, _⟩ => ⟨S896, .f32⟩
  | .hbm, ⟨15, _⟩ => ⟨S896, .f32⟩
  | .hbm, ⟨16, _⟩ => ⟨S896, .f32⟩
  | .hbm, ⟨17, _⟩ => ⟨S32768x2688, .f32⟩
  | .hbm, ⟨18, _⟩ => ⟨S32768x896, .f32⟩
  | .hbm, ⟨19, _⟩ => ⟨S32768x896, .f32⟩
  | .hbm, ⟨20, _⟩ => ⟨S32768x896, .f32⟩
  | .hbm, ⟨21, _⟩ => ⟨S32768x1344, .f32⟩
  | .hbm, ⟨22, _⟩ => ⟨S32768x448, .f32⟩
  | .hbm, ⟨23, _⟩ => ⟨S32768x448, .f32⟩
  | .hbm, ⟨24, _⟩ => ⟨S32768x448, .f32⟩
  | .hbm, ⟨25, _⟩ => ⟨S32768x3, .f32⟩
  | .hbm, ⟨26, _⟩ => ⟨S32768x1344, .f32⟩
  | .hbm, ⟨27, _⟩ => ⟨S32768x448, .f32⟩
  | .hbm, ⟨28, _⟩ => ⟨S32768x448, .f32⟩
  | .hbm, ⟨29, _⟩ => ⟨S32768x448, .f32⟩
  | .hbm, ⟨30, _⟩ => ⟨S32768x896, .f32⟩
  | .hbm, ⟨31, _⟩ => ⟨S32768x896, .f32⟩
  | .hbm, ⟨32, _⟩ => ⟨S32768x896, .f32⟩
  | .hbm, ⟨33, _⟩ => ⟨S32768x896, .f32⟩
  | .hbm, ⟨34, _⟩ => ⟨S1x896, .f32⟩
  | .hbm, ⟨35, _⟩ => ⟨S32768x896, .f32⟩
  | .hbm, ⟨36, _⟩ => ⟨S32768x896, .f32⟩
  | .hbm, ⟨37, _⟩ => ⟨S32768x896, .f32⟩
  | .hbm, ⟨38, _⟩ => ⟨S32768x896, .f32⟩
  | .hbm, ⟨39, _⟩ => ⟨S_, .f32⟩
  | .hbm, ⟨40, _⟩ => ⟨S32768x896, .f32⟩
  | .hbm, ⟨41, _⟩ => ⟨S32768x896, .f32⟩
  | .hbm, ⟨42, _⟩ => ⟨S_, .f32⟩
  | .hbm, ⟨43, _⟩ => ⟨S32768x896, .f32⟩
  | .hbm, ⟨44, _⟩ => ⟨S32768x896, .f32⟩
  | .hbm, ⟨45, _⟩ => ⟨S32768x896, .f32⟩
  | .hbm, ⟨46, _⟩ => ⟨S1x896, .f32⟩
  | .hbm, ⟨47, _⟩ => ⟨S32768x896, .f32⟩
  | .hbm, ⟨48, _⟩ => ⟨S32768x896, .f32⟩
  | .hbm, ⟨49, _⟩ => ⟨S32768x896, .f32⟩
  | .hbm, ⟨50, _⟩ => ⟨S32768x896, .f32⟩
  | .hbm, ⟨51, _⟩ => ⟨S_, .f32⟩
  | .hbm, ⟨52, _⟩ => ⟨S32768x896, .f32⟩
  | .hbm, ⟨53, _⟩ => ⟨S32768x896, .f32⟩
  | .hbm, ⟨54, _⟩ => ⟨S_, .f32⟩
  | .hbm, ⟨55, _⟩ => ⟨S32768x896, .f32⟩
  | .hbm, ⟨56, _⟩ => ⟨S32768x896, .f32⟩
  | .hbm, ⟨57, _⟩ => ⟨S32768x896, .f32⟩
  | .hbm, ⟨58, _⟩ => ⟨S32768x896, .f32⟩
  | .hbm, ⟨59, _⟩ => ⟨S1x896, .f32⟩
  | .hbm, ⟨60, _⟩ => ⟨S32768x896, .f32⟩
  | .hbm, ⟨61, _⟩ => ⟨S32768x896, .f32⟩
  | .hbm, ⟨62, _⟩ => ⟨S32768x896, .f32⟩
  | .hbm, ⟨63, _⟩ => ⟨S32768x896, .f32⟩
  | .hbm, ⟨64, _⟩ => ⟨S_, .f32⟩
  | .hbm, ⟨65, _⟩ => ⟨S32768x896, .f32⟩
  | .hbm, ⟨66, _⟩ => ⟨S32768x896, .f32⟩
  | .hbm, ⟨67, _⟩ => ⟨S32768x896, .f32⟩
  | .hbm, ⟨68, _⟩ => ⟨S32768x896, .f32⟩
  | .hbm, ⟨69, _⟩ => ⟨S32768x448, .f32⟩
  | .hbm, ⟨70, _⟩ => ⟨S32768x448, .f32⟩
  | .hbm, ⟨71, _⟩ => ⟨S32768x448, .f32⟩
  | .hbm, ⟨72, _⟩ => ⟨S1x448, .f32⟩
  | .hbm, ⟨73, _⟩ => ⟨S32768x448, .f32⟩
  | .hbm, ⟨74, _⟩ => ⟨S32768x448, .f32⟩
  | .hbm, ⟨75, _⟩ => ⟨S_, .f32⟩
  | .hbm, ⟨76, _⟩ => ⟨S32768x448, .f32⟩
  | .hbm, ⟨77, _⟩ => ⟨S32768x448, .f32⟩
  | .hbm, ⟨78, _⟩ => ⟨S32768x256, .f32⟩
  | .hbm, ⟨79, _⟩ => ⟨S1x256, .f32⟩
  | .hbm, ⟨80, _⟩ => ⟨S32768x256, .f32⟩
  | .hbm, ⟨81, _⟩ => ⟨S32768x256, .f32⟩
  | .hbm, ⟨82, _⟩ => ⟨S32768x448, .f32⟩
  | .hbm, ⟨83, _⟩ => ⟨S1x448, .f32⟩
  | .hbm, ⟨84, _⟩ => ⟨S32768x448, .f32⟩
  | .hbm, ⟨85, _⟩ => ⟨S32768x448, .f32⟩
  | .hbm, ⟨86, _⟩ => ⟨S_, .f32⟩
  | .hbm, ⟨87, _⟩ => ⟨S32768x448, .f32⟩
  | .hbm, ⟨88, _⟩ => ⟨S32768x448, .f32⟩
  | .hbm, ⟨89, _⟩ => ⟨S32768x256, .f32⟩
  | .hbm, ⟨90, _⟩ => ⟨S1x256, .f32⟩
  | .hbm, ⟨91, _⟩ => ⟨S32768x256, .f32⟩
  | .hbm, ⟨92, _⟩ => ⟨S32768x256, .f32⟩
  | _, _ => ⟨S32768x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩
abbrev main_cst_0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_1 : Ref sig .tc := ⟨.hbm, 51, rfl⟩
abbrev main_v32 : Ref sig .tc := ⟨.hbm, 52, rfl⟩
abbrev main_v33 : Ref sig .tc := ⟨.hbm, 53, rfl⟩
abbrev main_cst_2 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_3 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call0_cst : Ref sig .tc := ⟨.hbm, 75, rfl⟩
abbrev main_call0_v0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]

class Facts₀ : Prop where
  slices_S32768x2688_S32768x896_0_0 : S32768x2688.Slices ![0, 0] S32768x896
  slices_S32768x2688_S32768x896_0_896 : S32768x2688.Slices ![0, 896] S32768x896
  slices_S32768x2688_S32768x896_0_1792 : S32768x2688.Slices ![0, 1792] S32768x896
  slices_S32768x1344_S32768x448_0_0 : S32768x1344.Slices ![0, 0] S32768x448
  slices_S32768x1344_S32768x448_0_448 : S32768x1344.Slices ![0, 448] S32768x448
  slices_S32768x1344_S32768x448_0_896 : S32768x1344.Slices ![0, 896] S32768x448
  concatenates_S32768x2_S32768x1_S32768x3_d1 : Shape.Concatenates [S32768x2, S32768x1] S32768x3 1
  concatenates_S32768x448_S32768x448_S32768x896_d1 : Shape.Concatenates [S32768x448, S32768x448] S32768x896 1
  bcast_S896_S1x896_1 : S896.BroadcastsInDim S1x896 (![1] : Fin 1 → Fin S1x896.rank)
  bcast_S1x896_S32768x896_0_1 : S1x896.BroadcastsInDim S32768x896 (![0, 1] : Fin 2 → Fin S32768x896.rank)
  bcast_S_S32768x896 : S_.BroadcastsInDim S32768x896 (![] : Fin 0 → Fin S32768x896.rank)
  slices_S32768x896_S32768x448_0_0 : S32768x896.Slices ![0, 0] S32768x448
  slices_S32768x896_S32768x448_0_448 : S32768x896.Slices ![0, 448] S32768x448
  bcast_S448_S1x448_1 : S448.BroadcastsInDim S1x448 (![1] : Fin 1 → Fin S1x448.rank)
  bcast_S1x448_S32768x448_0_1 : S1x448.BroadcastsInDim S32768x448 (![0, 1] : Fin 2 → Fin S32768x448.rank)
  bcast_S_S32768x448 : S_.BroadcastsInDim S32768x448 (![] : Fin 0 → Fin S32768x448.rank)
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  dot_S32768x896_S896x2688_S32768x2688_1_0_0_1_n_n_wf : DotDims.WF S32768x896 S896x2688 S32768x2688 [1] [0] [0] [1] [] []
  dot_S32768x2_S2x1344_S32768x1344_1_0_0_1_n_n_wf : DotDims.WF S32768x2 S2x1344 S32768x1344 [1] [0] [0] [1] [] []
  dot_S32768x3_S3x1344_S32768x1344_1_0_0_1_n_n_wf : DotDims.WF S32768x3 S3x1344 S32768x1344 [1] [0] [0] [1] [] []
  dot_S32768x448_S448x448_S32768x448_1_0_0_1_n_n_wf : DotDims.WF S32768x448 S448x448 S32768x448 [1] [0] [0] [1] [] []
  dot_S32768x448_S448x256_S32768x256_1_0_0_1_n_n_wf : DotDims.WF S32768x448 S448x256 S32768x256 [1] [0] [0] [1] [] []

variable [Facts₀]

def dot_S32768x896_S896x2688_S32768x2688_1_0_0_1_n_n : DotDims S32768x896 S896x2688 S32768x2688 where
  lhsContracting := [1]
  rhsContracting := [0]
  lhsNonContracting := [0]
  rhsNonContracting := [1]
  lhsBatch := []
  rhsBatch := []
  wf := dot_S32768x896_S896x2688_S32768x2688_1_0_0_1_n_n_wf
def dot_S32768x2_S2x1344_S32768x1344_1_0_0_1_n_n : DotDims S32768x2 S2x1344 S32768x1344 where
  lhsContracting := [1]
  rhsContracting := [0]
  lhsNonContracting := [0]
  rhsNonContracting := [1]
  lhsBatch := []
  rhsBatch := []
  wf := dot_S32768x2_S2x1344_S32768x1344_1_0_0_1_n_n_wf
def dot_S32768x3_S3x1344_S32768x1344_1_0_0_1_n_n : DotDims S32768x3 S3x1344 S32768x1344 where
  lhsContracting := [1]
  rhsContracting := [0]
  lhsNonContracting := [0]
  rhsNonContracting := [1]
  lhsBatch := []
  rhsBatch := []
  wf := dot_S32768x3_S3x1344_S32768x1344_1_0_0_1_n_n_wf
def dot_S32768x448_S448x448_S32768x448_1_0_0_1_n_n : DotDims S32768x448 S448x448 S32768x448 where
  lhsContracting := [1]
  rhsContracting := [0]
  lhsNonContracting := [0]
  rhsNonContracting := [1]
  lhsBatch := []
  rhsBatch := []
  wf := dot_S32768x448_S448x448_S32768x448_1_0_0_1_n_n_wf
def dot_S32768x448_S448x256_S32768x256_1_0_0_1_n_n : DotDims S32768x448 S448x256 S32768x256 where
  lhsContracting := [1]
  rhsContracting := [0]
  lhsNonContracting := [0]
  rhsNonContracting := [1]
  lhsBatch := []
  rhsBatch := []
  wf := dot_S32768x448_S448x256_S32768x256_1_0_0_1_n_n_wf

class Facts : Prop extends Facts₀ where

variable [Facts]
-- ==== Proof.LibRowDots.lean ====
/-
  MATRIX PRODUCTS WHOSE RESULT ROW COMES FROM THE LEFT OPERAND'S ROW, READ AT AN INDEX (general lemmas; they mention no
  program).

  Two layouts of the right operand, both without batch axes and with one contracted axis of extent K:

  * PLAIN, [M, K] × [K, N] → [M, N]: the left operand's axis 1 is contracted with the right operand's axis 0. The left
    index at result index (i, j) and contraction position k is (i, k), the right index is (k, j).
  * GROUPED, [M, K] × [A, B, K] → [M, A, B]: the left operand's axis 1 is contracted with the right operand's axis 2;
    the right operand's two leading axes become the result's two trailing axes. The left index at result index
    (i, a, b) and contraction position k is (i, k), the right index is (a, b, k).

  In both the contraction index set has one axis, so it is Fin K, and on the extended reals the product is the finite
  sum over k of the operands' entries' products — for a product accumulated into zero and for the accumulator-free
  general dot alike.
-/
import Idealize.ShloMosaic.PureOps.Ideal.Laws
import Idealize.ShloMosaic.Lib.ValueIdx

noncomputable section

open scoped BigOperators

namespace Cert.Lib.RowDots

open Idealize.ShloMosaic Idealize.ShloMosaic.ValueIdx

/-- Reading one function of indices at two equal positions. -/
private theorem val_congr {r : Nat} {n : Fin r → Nat} (j : (a : Fin r) → Fin (n a)) (p p' : Nat) (hp : p < r) (hp' : p' < r)
    (e : p = p') : (j ⟨p, hp⟩).val = (j ⟨p', hp'⟩).val := by subst e; rfl

/-! ## Plain: [M, K] × [K, N] → [M, N] -/

section Plain

variable {M K N : Nat} (d : DotDims (⟨2, ![M, K]⟩ : Shape) (⟨2, ![K, N]⟩ : Shape) (⟨2, ![M, N]⟩ : Shape))

/-- The dimension numbers of x · w: contract left axis 1 with right axis 0, keep left axis 0 and right axis 1, no
    batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem Plain.contr_rank (h : Plain d) : d.contr.rank = 1 := by rw [d.rank_contr, h.lc]; rfl

theorem Plain.contr_size (h : Plain d) : d.contr.size ⟨0, by rw [h.contr_rank]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem Plain.lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr j _ 0 _ Nat.zero_lt_two (by simp [h.lb, h.ln])

/-- The left operand's column is the contraction position. -/
theorem Plain.lhs_col (h : Plain d) (j : (⟨2, ![M, N]⟩ : Shape).Idx) (q : d.contr.Idx) :
    (d.lhsIdx j q 1).val = (q ⟨0, by rw [h.contr_rank]; exact Nat.one_pos⟩).val :=
  d.lhsIdx_val_of_single h.lc j q

/-- The right operand's row is the contraction position. -/
theorem Plain.rhs_row (h : Plain d) (j : (⟨2, ![M, N]⟩ : Shape).Idx) (q : d.contr.Idx) :
    (d.rhsIdx j q 0).val = (q ⟨0, by rw [h.contr_rank]; exact Nat.one_pos⟩).val :=
  d.rhsIdx_val_of_single h.rc j q

/-- The right operand's column is the result's column. -/
theorem Plain.rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  exact val_congr j _ 1 _ Nat.one_lt_two (by simp [h.lb, h.ln, h.rn])

/-- The contraction's sum, re-indexed by the one contracted coordinate. -/
theorem Plain.sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K h.contr_rank h.contr_size).symm]
  refine Finset.sum_congr rfl fun k _ => ?_
  have hk := contrEquiv1_symm_val d K h.contr_rank h.contr_size k
  have el : d.lhsIdx j ((contrEquiv1 d K h.contr_rank h.contr_size).symm k) = ix2 (j 0) k := funext fun a => Fin.ext (by
    match a with
    | ⟨0, _⟩ => exact h.lhs_row _ _
    | ⟨1, _⟩ => exact (h.lhs_col _ _).trans hk)
  have er : d.rhsIdx j ((contrEquiv1 d K h.contr_rank h.contr_size).symm k) = ix2 k (j 1) := funext fun a => Fin.ext (by
    match a with
    | ⟨0, _⟩ => exact (h.rhs_row _ _).trans hk
    | ⟨1, _⟩ => exact h.rhs_col _ _)
  exact congrArg₂ (· * ·) (congrArg l el) (congrArg r er)

/-- The product into the zero accumulator, at an index. -/
theorem Plain.matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (h.sum_eq l r j)

/-- The accumulator-free general dot, at an index. -/
theorem Plain.dotGeneral_apply (h : Plain d) {φ₁ φ₂ : FTy} (prec : Option ContractPrecision) (sched : HostSchedule)
    (l : FVec Ideal (⟨2, ![M, K]⟩ : Shape) φ₁) (r : FVec Ideal (⟨2, ![K, N]⟩ : Shape) φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (h.sum_eq l r j)

end Plain

/-! ## Grouped: [M, K] × [A, B, K] → [M, A, B] -/

section Grouped

variable {M K A B : Nat} (d : DotDims (⟨2, ![M, K]⟩ : Shape) (⟨3, ![A, B, K]⟩ : Shape) (⟨3, ![M, A, B]⟩ : Shape))

/-- The dimension numbers of the product of each row with each of A · B weight rows: contract left axis 1 with right
    axis 2, keep left axis 0 and right axes 0 and 1, no batch axes. -/
structure Grouped : Prop where
  lc : d.lhsContracting = [1]
  rc : d.rhsContracting = [2]
  ln : d.lhsNonContracting = [0]
  rn : d.rhsNonContracting = [0, 1]
  lb : d.lhsBatch = []
  rb : d.rhsBatch = []

variable {d}

theorem Grouped.contr_rank (h : Grouped d) : d.contr.rank = 1 := by rw [d.rank_contr, h.lc]; rfl

theorem Grouped.contr_size (h : Grouped d) : d.contr.size ⟨0, by rw [h.contr_rank]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

theorem Grouped.lhs_row (h : Grouped d) (j : (⟨3, ![M, A, B]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr j _ 0 _ (show 0 < 3 by omega) (by simp [h.lb, h.ln])

theorem Grouped.lhs_col (h : Grouped d) (j : (⟨3, ![M, A, B]⟩ : Shape).Idx) (q : d.contr.Idx) :
    (d.lhsIdx j q 1).val = (q ⟨0, by rw [h.contr_rank]; exact Nat.one_pos⟩).val :=
  d.lhsIdx_val_of_single h.lc j q

/-- The right operand's first axis is the result's second. -/
theorem Grouped.rhs_fst (h : Grouped d) (j : (⟨3, ![M, A, B]⟩ : Shape).Idx) (q : d.contr.Idx) : (d.rhsIdx j q 0).val = (j 1).val := by
  have hb : (0 : Fin (⟨3, ![A, B, K]⟩ : Shape).rank) ∉ d.rhsBatch := by rw [h.rb]; exact List.not_mem_nil
  have hn : (0 : Fin (⟨3, ![A, B, K]⟩ : Shape).rank) ∈ d.rhsNonContracting := by rw [h.rn]; simp
  unfold DotDims.rhsIdx
  rw [dif_neg hb, dif_pos hn]
  simp only [Fin.val_cast]
  exact val_congr j _ 1 _ (show 1 < 3 by omega) (by simp [h.lb, h.ln, h.rn])

/-- The right operand's second axis is the result's third. -/
theorem Grouped.rhs_snd (h : Grouped d) (j : (⟨3, ![M, A, B]⟩ : Shape).Idx) (q : d.contr.Idx) : (d.rhsIdx j q 1).val = (j 2).val := by
  have hb : (1 : Fin (⟨3, ![A, B, K]⟩ : Shape).rank) ∉ d.rhsBatch := by rw [h.rb]; exact List.not_mem_nil
  have hn : (1 : Fin (⟨3, ![A, B, K]⟩ : Shape).rank) ∈ d.rhsNonContracting := by rw [h.rn]; simp
  unfold DotDims.rhsIdx
  rw [dif_neg hb, dif_pos hn]
  simp only [Fin.val_cast]
  exact val_congr j _ 2 _ (show 2 < 3 by omega) (by simp [h.lb, h.ln, h.rn])

/-- The right operand's last axis is the contraction position. -/
theorem Grouped.rhs_last (h : Grouped d) (j : (⟨3, ![M, A, B]⟩ : Shape).Idx) (q : d.contr.Idx) :
    (d.rhsIdx j q 2).val = (q ⟨0, by rw [h.contr_rank]; exact Nat.one_pos⟩).val :=
  d.rhsIdx_val_of_single h.rc j q

theorem Grouped.sum_eq (h : Grouped d) (l : (⟨2, ![M, K]⟩ : Shape).Idx → EReal) (r : (⟨3, ![A, B, K]⟩ : Shape).Idx → EReal)
    (j : (⟨3, ![M, A, B]⟩ : Shape).Idx) :
    ∑ q : d.contr.Idx, l (d.lhsIdx j q) * r (d.rhsIdx j q) = ∑ k : Fin K, l (ix2 (j 0) k) * r (ix3 (j 1) (j 2) k) := by
  rw [← Equiv.sum_comp (contrEquiv1 d K h.contr_rank h.contr_size).symm]
  refine Finset.sum_congr rfl fun k _ => ?_
  have hk := contrEquiv1_symm_val d K h.contr_rank h.contr_size k
  have el : d.lhsIdx j ((contrEquiv1 d K h.contr_rank h.contr_size).symm k) = ix2 (j 0) k := funext fun a => Fin.ext (by
    match a with
    | ⟨0, _⟩ => exact h.lhs_row _ _
    | ⟨1, _⟩ => exact (h.lhs_col _ _).trans hk)
  have er : d.rhsIdx j ((contrEquiv1 d K h.contr_rank h.contr_size).symm k) = ix3 (j 1) (j 2) k := funext fun a => Fin.ext (by
    match a with
    | ⟨0, _⟩ => exact h.rhs_fst _ _
    | ⟨1, _⟩ => exact h.rhs_snd _ _
    | ⟨2, _⟩ => exact (h.rhs_last _ _).trans hk)
  exact congrArg₂ (· * ·) (congrArg l el) (congrArg r er)

/-- The accumulator-free general dot, at an index. -/
theorem Grouped.dotGeneral_apply (h : Grouped d) {φ₁ φ₂ : FTy} (prec : Option ContractPrecision) (sched : HostSchedule)
    (l : FVec Ideal (⟨2, ![M, K]⟩ : Shape) φ₁) (r : FVec Ideal (⟨3, ![A, B, K]⟩ : Shape) φ₂) (j : (⟨3, ![M, A, B]⟩ : Shape).Idx) :
    FloatOps.dotGeneral d prec sched l r j = ∑ k : Fin K, l (ix2 (j 0) k) * r (ix3 (j 1) (j 2) k) :=
  (Ideal.dotGeneral_apply d prec sched l r j).trans (h.sum_eq l r j)

end Grouped

end Cert.Lib.RowDots

end
-- ==== Proof.LibRowBroadcast.lean ====
/-
  ONE ROW REPEATED OVER MANY, IN THE HOST'S SPELLING, READ AT AN INDEX (general lemmas; they mention no program).

  A vector [b] joins a table [a, b] in two steps: it is placed as the one row of [1, b], and that row is repeated along
  the leading axis. At (u, j) the placed row reads the vector at j; at (i, j) the repeated row reads the row at (0, j).
-/
import Idealize.ShloMosaic.Lib.Pipeline.Value
import Idealize.ShloMosaic.Lib.ValueIdx

namespace Cert.Lib.RowBroadcast

open Idealize.ShloMosaic Idealize.ShloMosaic.ValueIdx

variable {α : Type}

/-- A vector `[b]` placed as the one row of `[1, b]` reads, at `(u, j)`, the vector at `j`. -/
theorem broadcastInDim_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- The one row `[1, b]` repeated to `[a, b]` reads, at `(i, j)`, the row at `(0, j)`. -/
theorem broadcastInDim_1b_ab_apply {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply _ h x (ix2 i j) (ix2 (0 : Fin 1) j) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl

end Cert.Lib.RowBroadcast
-- ==== Proof.LibRowWindow.lean ====
/-
  A WINDOW OF CONSECUTIVE ROWS OF A TABLE, AND THE ROW-WISE OPERATIONS IT PASSES THROUGH (general lemmas; they mention
  no program).

  A table [R, n] is cut along its rows into windows of r consecutive rows; `rowWin o` is the window that starts at row o:
  its entry (p, q) is the table's entry (o + p, q). Every operation that computes row i of its result from row i of its
  table operands alone — whatever it does along the columns, and whatever whole operands (a weight matrix, a bias row,
  a constant) it reads beside them — passes through the window: the window of the result is the operation applied to
  the windows of the table operands. Stated here, on the extended reals where a product is a finite sum:

  * a column slice [R, n] → [R, n'] at column offset c;
  * a concatenation of two tables along the columns;
  * a matrix product x · w of a table x with a whole matrix w, the whole-table one in the accumulator-free general
    form and the windowed one accumulated into zero (the two spellings a reference and a blocked kernel use);
  * one row [n] laid along every row of the table, in the two-step placed-then-repeated spelling on the whole table
    and in the cast-then-broadcast spelling on the window;
  * a constant filling the table;
  * the elementwise operations (sum, product, difference, maximum, hyperbolic tangent, and the logistic function,
    which the whole table spells 1 / (1 + exp (−x))).
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«121208_j55327768708091_1_alg».proof.Proof.LibRowDots
import proofs.«121208_j55327768708091_1_alg».proof.Proof.LibRowBroadcast

noncomputable section

open scoped BigOperators

namespace Cert.Lib.RowWindow

open Idealize.ShloMosaic Idealize.ShloMosaic.ValueIdx Cert.Lib.RowDots Cert.Lib.RowBroadcast

variable {α : Type} {R r : ℕ}

/-- The r rows of a table that start at row o: entry (p, q) of the window is entry (o + p, q) of the table. -/
def rowWin (o : ℕ) (ho : o + r ≤ R) {n : ℕ} (A : (⟨2, ![R, n]⟩ : Shape).Idx → α) : (⟨2, ![r, n]⟩ : Shape).Idx → α :=
  fun y => A (ix2 (⟨o + (y 0).val, by have := idx2_lt0 y; omega⟩ : Fin R) (⟨(y 1).val, idx2_lt1 y⟩ : Fin n))

theorem rowWin_apply (o : ℕ) (ho : o + r ≤ R) {n : ℕ} (A : (⟨2, ![R, n]⟩ : Shape).Idx → α) (p : Fin r) (q : Fin n) :
    rowWin o ho A (ix2 p q) = A (ix2 (⟨o + p.val, by have := p.isLt; omega⟩ : Fin R) q) := rfl

/-! ## Layout along the columns -/

/-- A column slice of the window is the window of the column slice. -/
theorem rowWin_slice (o : ℕ) (ho : o + r ≤ R) {n n' : ℕ} (c : ℕ) (A : (⟨2, ![R, n]⟩ : Shape).Idx → α)
    (hR : (⟨2, ![R, n]⟩ : Shape).Slices ![0, c] ⟨2, ![R, n']⟩) (hr : (⟨2, ![r, n]⟩ : Shape).Slices ![0, c] ⟨2, ![r, n']⟩) :
    rowWin o ho (extractStridedSlice ⟨2, ![R, n']⟩ ![0, c] A hR)
      = extractStridedSlice ⟨2, ![r, n']⟩ ![0, c] (rowWin o ho A) hr := by
  funext y
  obtain ⟨p, q, rfl⟩ : ∃ (p : Fin r) (q : Fin n'), y = ix2 p q := ⟨y 0, y 1, eq_ix2 y⟩
  have hc : c + n' ≤ n := hR.2 (1 : Fin 2)
  have hp := p.isLt
  have hq := q.isLt
  rw [rowWin_apply]
  rw [extractStridedSlice_apply ![0, c] A hR (ix2 (⟨o + p.val, by omega⟩ : Fin R) q)
    (ix2 (⟨o + p.val, by omega⟩ : Fin R) (⟨c + q.val, by omega⟩ : Fin n)) (fun a => by
      match a with
      | ⟨0, _⟩ => show o + p.val = 0 + (o + p.val); omega
      | ⟨1, _⟩ => rfl)]
  rw [extractStridedSlice_apply ![0, c] (rowWin o ho A) hr (ix2 p q) (ix2 p (⟨c + q.val, by omega⟩ : Fin n)) (fun a => by
      match a with
      | ⟨0, _⟩ => show p.val = 0 + p.val; omega
      | ⟨1, _⟩ => rfl)]
  rfl

/-- Two windows side by side are the window of the two tables side by side. -/
theorem rowWin_concat (o : ℕ) (ho : o + r ≤ R) {n₁ n₂ n : ℕ} (A₁ : (⟨2, ![R, n₁]⟩ : Shape).Idx → α)
    (A₂ : (⟨2, ![R, n₂]⟩ : Shape).Idx → α)
    (hR : Shape.Concatenates [(⟨2, ![R, n₁]⟩ : Shape), ⟨2, ![R, n₂]⟩] ⟨2, ![R, n]⟩ 1)
    (hr : Shape.Concatenates [(⟨2, ![r, n₁]⟩ : Shape), ⟨2, ![r, n₂]⟩] ⟨2, ![r, n]⟩ 1) :
    rowWin o ho (concatenate ⟨2, ![R, n]⟩ 1 [⟨⟨2, ![R, n₁]⟩, A₁⟩, ⟨⟨2, ![R, n₂]⟩, A₂⟩] hR)
      = concatenate ⟨2, ![r, n]⟩ 1 [⟨⟨2, ![r, n₁]⟩, rowWin o ho A₁⟩, ⟨⟨2, ![r, n₂]⟩, rowWin o ho A₂⟩] hr := by
  funext y
  obtain ⟨p, q, rfl⟩ : ∃ (p : Fin r) (q : Fin n), y = ix2 p q := ⟨y 0, y 1, eq_ix2 y⟩
  have hn : n₁ + (n₂ + 0) = n := hR.2.2
  have hp := p.isLt
  have hq := q.isLt
  rw [rowWin_apply]
  by_cases hlt : q.val < n₁
  · rw [concatenate_pair_apply_left (1 : Fin 2) A₁ A₂ hR (ix2 (⟨o + p.val, by omega⟩ : Fin R) q) rfl
      (ix2 (⟨o + p.val, by omega⟩ : Fin R) (⟨q.val, hlt⟩ : Fin n₁)) (fun b => by
        match b with
        | ⟨0, _⟩ => rfl
        | ⟨1, _⟩ => rfl)]
    rw [concatenate_pair_apply_left (1 : Fin 2) (rowWin o ho A₁) (rowWin o ho A₂) hr (ix2 p q) rfl
      (ix2 p (⟨q.val, hlt⟩ : Fin n₁)) (fun b => by
        match b with
        | ⟨0, _⟩ => rfl
        | ⟨1, _⟩ => rfl)]
    rfl
  · rw [concatenate_pair_apply_right (1 : Fin 2) A₁ A₂ hR (ix2 (⟨o + p.val, by omega⟩ : Fin R) q) rfl rfl
      (ix2 (⟨o + p.val, by omega⟩ : Fin R) (⟨q.val - n₁, by omega⟩ : Fin n₂)) (fun b hb => by
        match b with
        | ⟨0, _⟩ => rfl
        | ⟨1, _⟩ => exact absurd rfl hb) (by show q.val - n₁ + n₁ = q.val; omega)]
    rw [concatenate_pair_apply_right (1 : Fin 2) (rowWin o ho A₁) (rowWin o ho A₂) hr (ix2 p q) rfl rfl
      (ix2 p (⟨q.val - n₁, by omega⟩ : Fin n₂)) (fun b hb => by
        match b with
        | ⟨0, _⟩ => rfl
        | ⟨1, _⟩ => exact absurd rfl hb) (by show q.val - n₁ + n₁ = q.val; omega)]
    rfl

/-- One row laid along every row: the window of the placed-then-repeated row is the cast-then-broadcast row. -/
theorem rowWin_rowBroadcast (o : ℕ) (ho : o + r ≤ R) {n : ℕ} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![R, n]⟩ ![0, 1])
    (sc : (⟨1, ![n]⟩ : Shape).ShapeCasts ⟨2, ![1, n]⟩) (bt : (⟨2, ![1, n]⟩ : Shape).Broadcasts ⟨2, ![r, n]⟩) :
    rowWin o ho (broadcastInDim ⟨2, ![R, n]⟩ ![0, 1] h2 (broadcastInDim ⟨2, ![1, n]⟩ ![1] h1 b))
      = broadcastTo ⟨2, ![r, n]⟩ (shapeCast ⟨2, ![1, n]⟩ b sc) bt := by
  funext y
  obtain ⟨p, q, rfl⟩ : ∃ (p : Fin r) (q : Fin n), y = ix2 p q := ⟨y 0, y 1, eq_ix2 y⟩
  rw [rowWin_apply, broadcastInDim_1b_ab_apply, broadcastInDim_b_1b_apply, broadcastTo_1b_ab_apply]
  exact (shapeCast_apply b sc (ix2 (0 : Fin 1) q) (ix1 q) (by
    rw [Shape.rowMajor_val_one, Shape.rowMajor_val_two]; show q.val = 0 * n + q.val; omega)).symm

/-- A constant filling the table fills the window. -/
theorem rowWin_constant {F : FTy → Type} [FloatOps F] (o : ℕ) (ho : o + r ≤ R) {n : ℕ} {s : Shape} {φ : FTy}
    (dims : Fin s.rank → Fin (⟨2, ![R, n]⟩ : Shape).rank) (h : s.BroadcastsInDim ⟨2, ![R, n]⟩ dims) (b : BitVec φ.bits) :
    rowWin o ho (broadcastInDim ⟨2, ![R, n]⟩ dims h (constant s φ b : FVec F s φ))
      = broadcast ⟨2, ![r, n]⟩ (Scalar.ofBits (F := F) φ b) := by
  funext y; rfl

/-! ## The matrix product of a table with a whole matrix -/

/-- The window of x · w is (the window of x) · w: row o + p of the product is the sum over k of x (o + p, k) · w (k, q).
    The windowed factors are given as any two arrays that read as the window of x and as w (a format change, which
    is the identity on the extended reals, or a cast to the same shape may stand around them). -/
theorem rowWin_dot (o : ℕ) (ho : o + r ≤ R) {K N : ℕ}
    {dR : DotDims (⟨2, ![R, K]⟩ : Shape) (⟨2, ![K, N]⟩ : Shape) (⟨2, ![R, N]⟩ : Shape)}
    {dr : DotDims (⟨2, ![r, K]⟩ : Shape) (⟨2, ![K, N]⟩ : Shape) (⟨2, ![r, N]⟩ : Shape)}
    (hR : Plain dR) (hr : Plain dr) {φ₁ φ₂ ψ₁ ψ₂ : FTy} (pR pr : Option ContractPrecision)
    (A : FVec Ideal (⟨2, ![R, K]⟩ : Shape) φ₁) (W : FVec Ideal (⟨2, ![K, N]⟩ : Shape) φ₂)
    (a : FVec Ideal (⟨2, ![r, K]⟩ : Shape) ψ₁) (w : FVec Ideal (⟨2, ![K, N]⟩ : Shape) ψ₂)
    (ha : ∀ (p : Fin r) (k : Fin K), a (ix2 p k) = rowWin o ho A (ix2 p k))
    (hw : ∀ (k : Fin K) (q : Fin N), w (ix2 k q) = W (ix2 k q)) :
    rowWin o ho (Host.dotGeneral dR pR A W) = matmul dr pr a w (constant (⟨2, ![r, N]⟩ : Shape) .f32 0x00000000#32) := by
  funext y
  obtain ⟨p, q, rfl⟩ : ∃ (p : Fin r) (q : Fin N), y = ix2 p q := ⟨y 0, y 1, eq_ix2 y⟩
  rw [rowWin_apply]
  show FloatOps.dotGeneral dR pR .single A W (ix2 (⟨o + p.val, _⟩ : Fin R) q)
    = FloatOps.matmul dr pr a w (constant (⟨2, ![r, N]⟩ : Shape) .f32 0x00000000#32) (ix2 p q)
  rw [hR.dotGeneral_apply, hr.matmul_zero_apply]
  refine Finset.sum_congr rfl fun k _ => ?_
  show A (ix2 (⟨o + p.val, _⟩ : Fin R) k) * W (ix2 k q) = a (ix2 p k) * w (ix2 k q)
  rw [ha, hw]
  rfl

/-! ## Elementwise operations -/

section Elementwise

variable {n : ℕ} {φ : FTy} (o : ℕ) (ho : o + r ≤ R)

theorem rowWin_addf (a b : FVec Ideal (⟨2, ![R, n]⟩ : Shape) φ) :
    rowWin o ho (addf a b) = addf (rowWin o ho a) (rowWin o ho b) := rfl

theorem rowWin_mulf (a b : FVec Ideal (⟨2, ![R, n]⟩ : Shape) φ) :
    rowWin o ho (mulf a b) = mulf (rowWin o ho a) (rowWin o ho b) := rfl

theorem rowWin_subf (a b : FVec Ideal (⟨2, ![R, n]⟩ : Shape) φ) :
    rowWin o ho (subf a b) = subf (rowWin o ho a) (rowWin o ho b) := rfl

theorem rowWin_maximumf (a b : FVec Ideal (⟨2, ![R, n]⟩ : Shape) φ) :
    rowWin o ho (maximumf a b) = maximumf (rowWin o ho a) (rowWin o ho b) := rfl

/-- The hyperbolic tangent is one function in the whole table's spelling and in the window's. -/
theorem rowWin_tanh (a : FVec Ideal (⟨2, ![R, n]⟩ : Shape) φ) :
    rowWin o ho (Host.tanh a) = tanh (rowWin o ho a) := rfl

/-- 1 / (1 + exp (−x)) over the whole table, the ones constants that fill it, is the logistic function of the window. -/
theorem rowWin_logistic {s : Shape} (dims : Fin s.rank → Fin (⟨2, ![R, n]⟩ : Shape).rank)
    (h : s.BroadcastsInDim ⟨2, ![R, n]⟩ dims) (a : FVec Ideal (⟨2, ![R, n]⟩ : Shape) .f32) :
    rowWin o ho (Host.divf (broadcastInDim ⟨2, ![R, n]⟩ dims h (constant s .f32 0x3F800000#32))
        (addf (broadcastInDim ⟨2, ![R, n]⟩ dims h (constant s .f32 0x3F800000#32)) (Host.exp (Host.negf a))))
      = logistic (rowWin o ho a) := by
  funext y
  show FloatOps.hostDivf (Ideal.ofBits .f32 0x3F800000#32)
      (FloatOps.addf (Ideal.ofBits .f32 0x3F800000#32) (FloatOps.hostUnary .exp (FloatOps.hostNegf (a _))))
    = FloatOps.logistic (a _)
  rw [Ideal.ofBits_one_f32]
  rfl

end Elementwise

end Cert.Lib.RowWindow

end
-- ==== Proof.BlockSteps.lean ====
/-
  THE ROW-WISE STEPS OF THE CELL AT THIS PROGRAM'S SHAPES: each step of the reference, taken on a window of 256
  consecutive rows of its batch tables, is the kernel body's step on the windows.

  The general statements are about a window of r rows of a table of R rows; here R is the batch's 32768 rows and r the
  256 rows one grid point handles, and each statement is written with the shape records and side conditions the two
  printed programs carry, so that a chain of them turns the reference's term into the body's.
-/
import proofs.«121208_j55327768708091_1_alg».proof.Proof.LibRowWindow
import proofs.«121208_j55327768708091_1_alg».proof.Proof.Gen.KernelIdeal
import proofs.«121208_j55327768708091_1_alg».proof.Proof.Gen.ReferenceIdeal

noncomputable section

namespace Cert.BlockSteps

open Idealize.ShloMosaic Idealize.ShloMosaic.TcCoe Idealize.SL.Sem Idealize.ShloMosaic.ValueIdx
open Cert.Lib.RowWindow Cert.Lib.RowDots
open Cert.KernelIdeal Cert.KernelIdeal.Gen

variable (o : ℕ) (ho : o + 256 ≤ 32768)

theorem slice_2688_0 (A : FVec Ideal Cert.ReferenceIdeal.S32768x2688 .f32) :
    rowWin o ho (extractStridedSlice Cert.ReferenceIdeal.S32768x896 ![0, 0] A Cert.ReferenceIdeal.Gen.slices_S32768x2688_S32768x896_0_0)
      = extractStridedSlice S256x896 ![0, 0] (rowWin o ho A) slices_S256x2688_o0_0_S256x896 :=
  rowWin_slice o ho 0 A _ _

theorem slice_2688_896 (A : FVec Ideal Cert.ReferenceIdeal.S32768x2688 .f32) :
    rowWin o ho (extractStridedSlice Cert.ReferenceIdeal.S32768x896 ![0, 896] A Cert.ReferenceIdeal.Gen.slices_S32768x2688_S32768x896_0_896)
      = extractStridedSlice S256x896 ![0, 896] (rowWin o ho A) slices_S256x2688_o0_896_S256x896 :=
  rowWin_slice o ho 896 A _ _

theorem slice_2688_1792 (A : FVec Ideal Cert.ReferenceIdeal.S32768x2688 .f32) :
    rowWin o ho (extractStridedSlice Cert.ReferenceIdeal.S32768x896 ![0, 1792] A Cert.ReferenceIdeal.Gen.slices_S32768x2688_S32768x896_0_1792)
      = extractStridedSlice S256x896 ![0, 1792] (rowWin o ho A) slices_S256x2688_o0_1792_S256x896 :=
  rowWin_slice o ho 1792 A _ _

theorem slice_1344_0 (A : FVec Ideal Cert.ReferenceIdeal.S32768x1344 .f32) :
    rowWin o ho (extractStridedSlice Cert.ReferenceIdeal.S32768x448 ![0, 0] A Cert.ReferenceIdeal.Gen.slices_S32768x1344_S32768x448_0_0)
      = extractStridedSlice S256x448 ![0, 0] (rowWin o ho A) slices_S256x1344_o0_0_S256x448 :=
  rowWin_slice o ho 0 A _ _

theorem slice_1344_448 (A : FVec Ideal Cert.ReferenceIdeal.S32768x1344 .f32) :
    rowWin o ho (extractStridedSlice Cert.ReferenceIdeal.S32768x448 ![0, 448] A Cert.ReferenceIdeal.Gen.slices_S32768x1344_S32768x448_0_448)
      = extractStridedSlice S256x448 ![0, 448] (rowWin o ho A) slices_S256x1344_o0_448_S256x448 :=
  rowWin_slice o ho 448 A _ _

theorem slice_1344_896 (A : FVec Ideal Cert.ReferenceIdeal.S32768x1344 .f32) :
    rowWin o ho (extractStridedSlice Cert.ReferenceIdeal.S32768x448 ![0, 896] A Cert.ReferenceIdeal.Gen.slices_S32768x1344_S32768x448_0_896)
      = extractStridedSlice S256x448 ![0, 896] (rowWin o ho A) slices_S256x1344_o0_896_S256x448 :=
  rowWin_slice o ho 896 A _ _

theorem slice_896_0 (A : FVec Ideal Cert.ReferenceIdeal.S32768x896 .f32) :
    rowWin o ho (extractStridedSlice Cert.ReferenceIdeal.S32768x448 ![0, 0] A Cert.ReferenceIdeal.Gen.slices_S32768x896_S32768x448_0_0)
      = extractStridedSlice S256x448 ![0, 0] (rowWin o ho A) slices_S256x896_o0_0_S256x448 :=
  rowWin_slice o ho 0 A _ _

theorem slice_896_448 (A : FVec Ideal Cert.ReferenceIdeal.S32768x896 .f32) :
    rowWin o ho (extractStridedSlice Cert.ReferenceIdeal.S32768x448 ![0, 448] A Cert.ReferenceIdeal.Gen.slices_S32768x896_S32768x448_0_448)
      = extractStridedSlice S256x448 ![0, 448] (rowWin o ho A) slices_S256x896_o0_448_S256x448 :=
  rowWin_slice o ho 448 A _ _

theorem concat_3 (A₁ : FVec Ideal Cert.ReferenceIdeal.S32768x2 .f32) (A₂ : FVec Ideal Cert.ReferenceIdeal.S32768x1 .f32) :
    rowWin o ho (concatenate Cert.ReferenceIdeal.S32768x3 1 [⟨Cert.ReferenceIdeal.S32768x2, A₁⟩, ⟨Cert.ReferenceIdeal.S32768x1, A₂⟩] Cert.ReferenceIdeal.Gen.concatenates_S32768x2_S32768x1_S32768x3_d1)
      = concatenate S256x3 1 [⟨S256x2, rowWin o ho A₁⟩, ⟨S256x1, rowWin o ho A₂⟩] concatenates_S256x2_S256x1_S256x3_d1 :=
  rowWin_concat o ho A₁ A₂ _ _

theorem concat_896 (A₁ : FVec Ideal Cert.ReferenceIdeal.S32768x448 .f32) (A₂ : FVec Ideal Cert.ReferenceIdeal.S32768x448 .f32) :
    rowWin o ho (concatenate Cert.ReferenceIdeal.S32768x896 1 [⟨Cert.ReferenceIdeal.S32768x448, A₁⟩, ⟨Cert.ReferenceIdeal.S32768x448, A₂⟩] Cert.ReferenceIdeal.Gen.concatenates_S32768x448_S32768x448_S32768x896_d1)
      = concatenate S256x896 1 [⟨S256x448, rowWin o ho A₁⟩, ⟨S256x448, rowWin o ho A₂⟩] concatenates_S256x448_S256x448_S256x896_d1 :=
  rowWin_concat o ho A₁ A₂ _ _

theorem bias_896 (b : FVec Ideal Cert.ReferenceIdeal.S896 .f32) :
    rowWin o ho (broadcastInDim Cert.ReferenceIdeal.S32768x896 ![0, 1] Cert.ReferenceIdeal.Gen.bcast_S1x896_S32768x896_0_1 (broadcastInDim Cert.ReferenceIdeal.S1x896 ![1] Cert.ReferenceIdeal.Gen.bcast_S896_S1x896_1 b))
      = broadcastTo S256x896 (shapeCast S1x896 b shapeCasts_S896_S1x896) broadcasts_S1x896_S256x896 :=
  rowWin_rowBroadcast o ho b _ _ _ _

theorem bias_448 (b : FVec Ideal Cert.ReferenceIdeal.S448 .f32) :
    rowWin o ho (broadcastInDim Cert.ReferenceIdeal.S32768x448 ![0, 1] Cert.ReferenceIdeal.Gen.bcast_S1x448_S32768x448_0_1 (broadcastInDim Cert.ReferenceIdeal.S1x448 ![1] Cert.ReferenceIdeal.Gen.bcast_S448_S1x448_1 b))
      = broadcastTo S256x448 (shapeCast S1x448 b shapeCasts_S448_S1x448) broadcasts_S1x448_S256x448 :=
  rowWin_rowBroadcast o ho b _ _ _ _

theorem bias_256 (b : FVec Ideal Cert.ReferenceIdeal.S256 .f32) :
    rowWin o ho (broadcastInDim Cert.ReferenceIdeal.S32768x256 ![0, 1] Cert.ReferenceIdeal.Gen.bcast_S1x256_S32768x256_0_1 (broadcastInDim Cert.ReferenceIdeal.S1x256 ![1] Cert.ReferenceIdeal.Gen.bcast_S256_S1x256_1 b))
      = broadcastTo S256x256 (shapeCast S1x256 b shapeCasts_S256_S1x256) broadcasts_S1x256_S256x256 :=
  rowWin_rowBroadcast o ho b _ _ _ _

theorem plainR_896x2688 : Plain Cert.ReferenceIdeal.dot_S32768x896_S896x2688_S32768x2688_1_0_0_1_n_n := ⟨rfl, rfl, rfl, rfl, rfl, rfl⟩
theorem plainK_896x2688 : Plain dot_S256x896_S896x2688_S256x2688_1_0_0_1_n_n := ⟨rfl, rfl, rfl, rfl, rfl, rfl⟩

theorem dot_896x2688 (A : FVec Ideal Cert.ReferenceIdeal.S32768x896 .f32) (W : FVec Ideal S896x2688 .f32) :
    rowWin o ho (Host.dotGeneral Cert.ReferenceIdeal.dot_S32768x896_S896x2688_S32768x2688_1_0_0_1_n_n none A W)
      = matmul dot_S256x896_S896x2688_S256x2688_1_0_0_1_n_n none (truncf .bf16 (rowWin o ho A) bitsLt_bf16_f32)
          (shapeCast S896x2688 (truncf .bf16 W bitsLt_bf16_f32 : FVec Ideal S896x2688 .bf16) shapeCasts_S896x2688_S896x2688) (constant S256x2688 .f32 0x00000000#32) :=
  rowWin_dot o ho plainR_896x2688 plainK_896x2688 none none A W _ _ (fun _ _ => rfl)
    (fun k q => congrFun (shapeCast_self (truncf .bf16 W bitsLt_bf16_f32 : FVec Ideal S896x2688 .bf16) shapeCasts_S896x2688_S896x2688) (ix2 k q))

theorem plainR_2x1344 : Plain Cert.ReferenceIdeal.dot_S32768x2_S2x1344_S32768x1344_1_0_0_1_n_n := ⟨rfl, rfl, rfl, rfl, rfl, rfl⟩
theorem plainK_2x1344 : Plain dot_S256x2_S2x1344_S256x1344_1_0_0_1_n_n := ⟨rfl, rfl, rfl, rfl, rfl, rfl⟩

theorem dot_2x1344 (A : FVec Ideal Cert.ReferenceIdeal.S32768x2 .f32) (W : FVec Ideal S2x1344 .f32) :
    rowWin o ho (Host.dotGeneral Cert.ReferenceIdeal.dot_S32768x2_S2x1344_S32768x1344_1_0_0_1_n_n none A W)
      = matmul dot_S256x2_S2x1344_S256x1344_1_0_0_1_n_n none (truncf .bf16 (rowWin o ho A) bitsLt_bf16_f32)
          (shapeCast S2x1344 (truncf .bf16 W bitsLt_bf16_f32 : FVec Ideal S2x1344 .bf16) shapeCasts_S2x1344_S2x1344) (constant S256x1344 .f32 0x00000000#32) :=
  rowWin_dot o ho plainR_2x1344 plainK_2x1344 none none A W _ _ (fun _ _ => rfl)
    (fun k q => congrFun (shapeCast_self (truncf .bf16 W bitsLt_bf16_f32 : FVec Ideal S2x1344 .bf16) shapeCasts_S2x1344_S2x1344) (ix2 k q))

theorem plainR_3x1344 : Plain Cert.ReferenceIdeal.dot_S32768x3_S3x1344_S32768x1344_1_0_0_1_n_n := ⟨rfl, rfl, rfl, rfl, rfl, rfl⟩
theorem plainK_3x1344 : Plain dot_S256x3_S3x1344_S256x1344_1_0_0_1_n_n := ⟨rfl, rfl, rfl, rfl, rfl, rfl⟩

theorem dot_3x1344 (A : FVec Ideal Cert.ReferenceIdeal.S32768x3 .f32) (W : FVec Ideal S3x1344 .f32) :
    rowWin o ho (Host.dotGeneral Cert.ReferenceIdeal.dot_S32768x3_S3x1344_S32768x1344_1_0_0_1_n_n none A W)
      = matmul dot_S256x3_S3x1344_S256x1344_1_0_0_1_n_n none (truncf .bf16 (rowWin o ho A) bitsLt_bf16_f32)
          (shapeCast S3x1344 (truncf .bf16 W bitsLt_bf16_f32 : FVec Ideal S3x1344 .bf16) shapeCasts_S3x1344_S3x1344) (constant S256x1344 .f32 0x00000000#32) :=
  rowWin_dot o ho plainR_3x1344 plainK_3x1344 none none A W _ _ (fun _ _ => rfl)
    (fun k q => congrFun (shapeCast_self (truncf .bf16 W bitsLt_bf16_f32 : FVec Ideal S3x1344 .bf16) shapeCasts_S3x1344_S3x1344) (ix2 k q))

theorem plainR_448x448 : Plain Cert.ReferenceIdeal.dot_S32768x448_S448x448_S32768x448_1_0_0_1_n_n := ⟨rfl, rfl, rfl, rfl, rfl, rfl⟩
theorem plainK_448x448 : Plain dot_S256x448_S448x448_S256x448_1_0_0_1_n_n := ⟨rfl, rfl, rfl, rfl, rfl, rfl⟩

theorem dot_448x448 (A : FVec Ideal Cert.ReferenceIdeal.S32768x448 .f32) (W : FVec Ideal S448x448 .f32) :
    rowWin o ho (Host.dotGeneral Cert.ReferenceIdeal.dot_S32768x448_S448x448_S32768x448_1_0_0_1_n_n none A W)
      = matmul dot_S256x448_S448x448_S256x448_1_0_0_1_n_n none (truncf .bf16 (rowWin o ho A) bitsLt_bf16_f32)
          (shapeCast S448x448 (truncf .bf16 W bitsLt_bf16_f32 : FVec Ideal S448x448 .bf16) shapeCasts_S448x448_S448x448) (constant S256x448 .f32 0x00000000#32) :=
  rowWin_dot o ho plainR_448x448 plainK_448x448 none none A W _ _ (fun _ _ => rfl)
    (fun k q => congrFun (shapeCast_self (truncf .bf16 W bitsLt_bf16_f32 : FVec Ideal S448x448 .bf16) shapeCasts_S448x448_S448x448) (ix2 k q))

theorem plainR_448x256 : Plain Cert.ReferenceIdeal.dot_S32768x448_S448x256_S32768x256_1_0_0_1_n_n := ⟨rfl, rfl, rfl, rfl, rfl, rfl⟩
theorem plainK_448x256 : Plain dot_S256x448_S448x256_S256x256_1_0_0_1_n_n := ⟨rfl, rfl, rfl, rfl, rfl, rfl⟩

theorem dot_448x256 (A : FVec Ideal Cert.ReferenceIdeal.S32768x448 .f32) (W : FVec Ideal S448x256 .f32) :
    rowWin o ho (Host.dotGeneral Cert.ReferenceIdeal.dot_S32768x448_S448x256_S32768x256_1_0_0_1_n_n none A W)
      = matmul dot_S256x448_S448x256_S256x256_1_0_0_1_n_n none (truncf .bf16 (rowWin o ho A) bitsLt_bf16_f32)
          (shapeCast S448x256 (truncf .bf16 W bitsLt_bf16_f32 : FVec Ideal S448x256 .bf16) shapeCasts_S448x256_S448x256) (constant S256x256 .f32 0x00000000#32) :=
  rowWin_dot o ho plainR_448x256 plainK_448x256 none none A W _ _ (fun _ _ => rfl)
    (fun k q => congrFun (shapeCast_self (truncf .bf16 W bitsLt_bf16_f32 : FVec Ideal S448x256 .bf16) shapeCasts_S448x256_S448x256) (ix2 k q))

end Cert.BlockSteps

end
-- ==== Proof.BlockRows.lean ====
/-
  THE REFERENCE'S THREE RESULTS, 256 ROWS AT A TIME, ARE THE KERNEL BODY'S THREE STORED VALUES.

  The cell computes, row by row of the batch: the recurrent projection h · R_W cut into its three gate parts; the two
  input projections y · I_coarse_W and [y, c] · I_fine_W, cut likewise and set side by side; the gates
  u = σ(R_u + I_u + b_u), r = σ(R_r + I_r + b_r), e = tanh(r · R_e + I_e + b_e); the new state u · h + (1 − u) · e; and
  from each half of the new state a two-layer projection max(· O₁ + b₁, 0) · O₂ + b₂. Every step reads row i of the
  batch tables and whole weight arrays only, so the window of 256 consecutive rows of each result is the same chain of
  steps applied to the windows of the batch tables: that is what the kernel body computes at one grid point, with the
  weights in a narrower float format, which changes nothing on the extended reals, and with σ as one operation where
  the reference spells 1 / (1 + exp (−x)).

  Each result's term is rewritten step by step, outermost step first, until the window stands on the argument
  tables only; what is left is the body's term.
-/
import proofs.«121208_j55327768708091_1_alg».proof.Proof.BlockSteps
import proofs.«121208_j55327768708091_1_alg».proof.Proof.Gen.KernelIdeal.Skeleton
import proofs.«121208_j55327768708091_1_alg».proof.Proof.Gen.ReferenceIdeal.Run

noncomputable section

namespace Cert.BlockRows

open Idealize.ShloMosaic Idealize.ShloMosaic.TcCoe Idealize.SL.Sem Idealize.ShloMosaic.ValueIdx
open Cert.Lib.RowWindow Cert.Lib.RowDots Cert.BlockSteps
open Cert.KernelIdeal Cert.KernelIdeal.Gen

variable (o : ℕ) (ho : o + 256 ≤ 32768)
variable (m' : (ℓ : Loc Cert.ReferenceIdeal.nD Cert.ReferenceIdeal.τ Cert.ReferenceIdeal.sig) → Buf (Elt Ideal) ℓ) (c : Dev Cert.ReferenceIdeal.nD)

/-! ## The reference's arguments, at their literal shapes -/

abbrev a0 : FVec Ideal Cert.ReferenceIdeal.S32768x2 .f32 := m' ((c.tc : Thread Cert.ReferenceIdeal.nD Cert.ReferenceIdeal.τ).loc Cert.ReferenceIdeal.main_arg0)
abbrev a1 : FVec Ideal Cert.ReferenceIdeal.S32768x896 .f32 := m' ((c.tc : Thread Cert.ReferenceIdeal.nD Cert.ReferenceIdeal.τ).loc Cert.ReferenceIdeal.main_arg1)
abbrev a2 : FVec Ideal Cert.ReferenceIdeal.S32768x1 .f32 := m' ((c.tc : Thread Cert.ReferenceIdeal.nD Cert.ReferenceIdeal.τ).loc Cert.ReferenceIdeal.main_arg2)
abbrev a3 : FVec Ideal Cert.ReferenceIdeal.S896x2688 .f32 := m' ((c.tc : Thread Cert.ReferenceIdeal.nD Cert.ReferenceIdeal.τ).loc Cert.ReferenceIdeal.main_arg3)
abbrev a4 : FVec Ideal Cert.ReferenceIdeal.S2x1344 .f32 := m' ((c.tc : Thread Cert.ReferenceIdeal.nD Cert.ReferenceIdeal.τ).loc Cert.ReferenceIdeal.main_arg4)
abbrev a5 : FVec Ideal Cert.ReferenceIdeal.S3x1344 .f32 := m' ((c.tc : Thread Cert.ReferenceIdeal.nD Cert.ReferenceIdeal.τ).loc Cert.ReferenceIdeal.main_arg5)
abbrev a6 : FVec Ideal Cert.ReferenceIdeal.S448x448 .f32 := m' ((c.tc : Thread Cert.ReferenceIdeal.nD Cert.ReferenceIdeal.τ).loc Cert.ReferenceIdeal.main_arg6)
abbrev a7 : FVec Ideal Cert.ReferenceIdeal.S448 .f32 := m' ((c.tc : Thread Cert.ReferenceIdeal.nD Cert.ReferenceIdeal.τ).loc Cert.ReferenceIdeal.main_arg7)
abbrev a8 : FVec Ideal Cert.ReferenceIdeal.S448x256 .f32 := m' ((c.tc : Thread Cert.ReferenceIdeal.nD Cert.ReferenceIdeal.τ).loc Cert.ReferenceIdeal.main_arg8)
abbrev a9 : FVec Ideal Cert.ReferenceIdeal.S256 .f32 := m' ((c.tc : Thread Cert.ReferenceIdeal.nD Cert.ReferenceIdeal.τ).loc Cert.ReferenceIdeal.main_arg9)
abbrev a10 : FVec Ideal Cert.ReferenceIdeal.S448x448 .f32 := m' ((c.tc : Thread Cert.ReferenceIdeal.nD Cert.ReferenceIdeal.τ).loc Cert.ReferenceIdeal.main_arg10)
abbrev a11 : FVec Ideal Cert.ReferenceIdeal.S448 .f32 := m' ((c.tc : Thread Cert.ReferenceIdeal.nD Cert.ReferenceIdeal.τ).loc Cert.ReferenceIdeal.main_arg11)
abbrev a12 : FVec Ideal Cert.ReferenceIdeal.S448x256 .f32 := m' ((c.tc : Thread Cert.ReferenceIdeal.nD Cert.ReferenceIdeal.τ).loc Cert.ReferenceIdeal.main_arg12)
abbrev a13 : FVec Ideal Cert.ReferenceIdeal.S256 .f32 := m' ((c.tc : Thread Cert.ReferenceIdeal.nD Cert.ReferenceIdeal.τ).loc Cert.ReferenceIdeal.main_arg13)
abbrev a14 : FVec Ideal Cert.ReferenceIdeal.S896 .f32 := m' ((c.tc : Thread Cert.ReferenceIdeal.nD Cert.ReferenceIdeal.τ).loc Cert.ReferenceIdeal.main_arg14)
abbrev a15 : FVec Ideal Cert.ReferenceIdeal.S896 .f32 := m' ((c.tc : Thread Cert.ReferenceIdeal.nD Cert.ReferenceIdeal.τ).loc Cert.ReferenceIdeal.main_arg15)
abbrev a16 : FVec Ideal Cert.ReferenceIdeal.S896 .f32 := m' ((c.tc : Thread Cert.ReferenceIdeal.nD Cert.ReferenceIdeal.τ).loc Cert.ReferenceIdeal.main_arg16)

/-! ## The three results -/

set_option maxRecDepth 16384 in
set_option maxHeartbeats 4000000 in
/-- The window of the new state is the body's stored state value of the windows. -/
theorem hidden_rows :
    rowWin o ho (Cert.ReferenceIdeal.Value.res_main_v46 (F := Ideal) m' c : FVec Ideal Cert.ReferenceIdeal.S32768x896 .f32)
      = k0_pay7 (F := Ideal) (rowWin o ho (a1 m' c)) (k0_pay5 (F := Ideal) (rowWin o ho (a1 m' c)) (rowWin o ho (a0 m' c)) (rowWin o ho (a2 m' c)) (truncf .bf16 (a3 m' c) bitsLt_bf16_f32) (truncf .bf16 (a4 m' c) bitsLt_bf16_f32) (truncf .bf16 (a5 m' c) bitsLt_bf16_f32) (a14 m' c)) (k0_pay6 (F := Ideal) (rowWin o ho (a1 m' c)) (rowWin o ho (a0 m' c)) (rowWin o ho (a2 m' c)) (truncf .bf16 (a3 m' c) bitsLt_bf16_f32) (truncf .bf16 (a4 m' c) bitsLt_bf16_f32) (truncf .bf16 (a5 m' c) bitsLt_bf16_f32) (a15 m' c)) (a16 m' c) := by
  unfold Cert.ReferenceIdeal.Value.res_main_v46 k0_pay7 k0_pay5 k0_pay6 k0_pay2 k0_pay3 k0_pay4
  repeat (first
    | rw [rowWin_addf]
    | rw [rowWin_mulf]
    | rw [rowWin_subf]
    | rw [rowWin_maximumf]
    | rw [rowWin_tanh]
    | rw [rowWin_logistic]
    | rw [rowWin_constant]
    | rw [slice_2688_0]
    | rw [slice_2688_896]
    | rw [slice_2688_1792]
    | rw [slice_1344_0]
    | rw [slice_1344_448]
    | rw [slice_1344_896]
    | rw [slice_896_0]
    | rw [slice_896_448]
    | rw [concat_3]
    | rw [concat_896]
    | rw [bias_896]
    | rw [bias_448]
    | rw [bias_256]
    | rw [dot_896x2688]
    | rw [dot_2x1344]
    | rw [dot_3x1344]
    | rw [dot_448x448]
    | rw [dot_448x256])
  all_goals rfl

set_option maxRecDepth 16384 in
set_option maxHeartbeats 4000000 in
/-- The window of the coarse projection is the body's stored coarse value of the windows. -/
theorem coarse_rows :
    rowWin o ho (Cert.ReferenceIdeal.Value.res_main_v57 (F := Ideal) m' c : FVec Ideal Cert.ReferenceIdeal.S32768x256 .f32)
      = k0_pay8 (F := Ideal) (rowWin o ho (a1 m' c)) (k0_pay5 (F := Ideal) (rowWin o ho (a1 m' c)) (rowWin o ho (a0 m' c)) (rowWin o ho (a2 m' c)) (truncf .bf16 (a3 m' c) bitsLt_bf16_f32) (truncf .bf16 (a4 m' c) bitsLt_bf16_f32) (truncf .bf16 (a5 m' c) bitsLt_bf16_f32) (a14 m' c)) (k0_pay6 (F := Ideal) (rowWin o ho (a1 m' c)) (rowWin o ho (a0 m' c)) (rowWin o ho (a2 m' c)) (truncf .bf16 (a3 m' c) bitsLt_bf16_f32) (truncf .bf16 (a4 m' c) bitsLt_bf16_f32) (truncf .bf16 (a5 m' c) bitsLt_bf16_f32) (a15 m' c)) (a16 m' c) (truncf .bf16 (a6 m' c) bitsLt_bf16_f32) (a7 m' c) (truncf .bf16 (a8 m' c) bitsLt_bf16_f32) (a9 m' c) := by
  unfold Cert.ReferenceIdeal.Value.res_main_v57 k0_pay8 k0_pay7 k0_pay5 k0_pay6 k0_pay2 k0_pay3 k0_pay4
  repeat (first
    | rw [rowWin_addf]
    | rw [rowWin_mulf]
    | rw [rowWin_subf]
    | rw [rowWin_maximumf]
    | rw [rowWin_tanh]
    | rw [rowWin_logistic]
    | rw [rowWin_constant]
    | rw [slice_2688_0]
    | rw [slice_2688_896]
    | rw [slice_2688_1792]
    | rw [slice_1344_0]
    | rw [slice_1344_448]
    | rw [slice_1344_896]
    | rw [slice_896_0]
    | rw [slice_896_448]
    | rw [concat_3]
    | rw [concat_896]
    | rw [bias_896]
    | rw [bias_448]
    | rw [bias_256]
    | rw [dot_896x2688]
    | rw [dot_2x1344]
    | rw [dot_3x1344]
    | rw [dot_448x448]
    | rw [dot_448x256])
  all_goals rfl

set_option maxRecDepth 16384 in
set_option maxHeartbeats 4000000 in
/-- The window of the fine projection is the body's stored fine value of the windows. -/
theorem fine_rows :
    rowWin o ho (Cert.ReferenceIdeal.Value.res_main_v66 (F := Ideal) m' c : FVec Ideal Cert.ReferenceIdeal.S32768x256 .f32)
      = k0_pay1 (F := Ideal) (k0_pay9 (F := Ideal) (rowWin o ho (a1 m' c)) (k0_pay5 (F := Ideal) (rowWin o ho (a1 m' c)) (rowWin o ho (a0 m' c)) (rowWin o ho (a2 m' c)) (truncf .bf16 (a3 m' c) bitsLt_bf16_f32) (truncf .bf16 (a4 m' c) bitsLt_bf16_f32) (truncf .bf16 (a5 m' c) bitsLt_bf16_f32) (a14 m' c)) (k0_pay6 (F := Ideal) (rowWin o ho (a1 m' c)) (rowWin o ho (a0 m' c)) (rowWin o ho (a2 m' c)) (truncf .bf16 (a3 m' c) bitsLt_bf16_f32) (truncf .bf16 (a4 m' c) bitsLt_bf16_f32) (truncf .bf16 (a5 m' c) bitsLt_bf16_f32) (a15 m' c)) (a16 m' c) (truncf .bf16 (a10 m' c) bitsLt_bf16_f32) (a11 m' c)) (truncf .bf16 (a12 m' c) bitsLt_bf16_f32) (a13 m' c) := by
  unfold Cert.ReferenceIdeal.Value.res_main_v66 k0_pay1 k0_pay9 k0_pay7 k0_pay5 k0_pay6 k0_pay2 k0_pay3 k0_pay4
  repeat (first
    | rw [rowWin_addf]
    | rw [rowWin_mulf]
    | rw [rowWin_subf]
    | rw [rowWin_maximumf]
    | rw [rowWin_tanh]
    | rw [rowWin_logistic]
    | rw [rowWin_constant]
    | rw [slice_2688_0]
    | rw [slice_2688_896]
    | rw [slice_2688_1792]
    | rw [slice_1344_0]
    | rw [slice_1344_448]
    | rw [slice_1344_896]
    | rw [slice_896_0]
    | rw [slice_896_448]
    | rw [concat_3]
    | rw [concat_896]
    | rw [bias_896]
    | rw [bias_448]
    | rw [bias_256]
    | rw [dot_896x2688]
    | rw [dot_2x1344]
    | rw [dot_3x1344]
    | rw [dot_448x448]
    | rw [dot_448x256])
  all_goals rfl

end Cert.BlockRows

end
-- ==== Proof.KernelValue.lean ====
/-
  WHAT THE KERNEL'S RUN LEAVES IN ITS THREE RESULT ARRAYS: THE REFERENCE'S THREE RESULTS.

  The grid has 128 points; point t stages rows 256 t … 256 t + 255 of the three batch tables and the whole of every
  weight and bias array (the weights cast by the host to a narrower float format, the identity on the extended reals),
  runs the body on them, and writes the body's three stored values back to rows 256 t … 256 t + 255 of the three result
  arrays. The body's stored values of the windows are the windows of the reference's results, so each point writes its
  256 rows of the reference's result; the 128 row blocks tile each array, row i lying in block i / 256, so each
  array ends holding the reference's result whole.

  The memories of the two programs agree on the arguments (`Agree`): the reference's results are stated as functions
  of the reference's memory, and the kernel's argument arrays are read through the agreement.
-/
import proofs.«121208_j55327768708091_1_alg».proof.Proof.BlockRows
import proofs.«121208_j55327768708091_1_alg».proof.Proof.Gen.KernelIdeal.Value
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelValue

open Cert.KernelIdeal Cert.KernelIdeal.Gen Cert.KernelIdeal.Value Cert.Lib.RowWindow Cert.BlockRows

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

/-- The two memories hold the same arguments. -/
def Agree : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)

theorem hz2 : (![0, 0] : Fin 2 → Nat) = fun _ => 0 := funext fun a => by fin_cases a <;> rfl
theorem hz1 : (![0] : Fin 1 → Nat) = fun _ => 0 := funext fun a => by fin_cases a <;> rfl

/-- The last row block ends at the table's last row. -/
theorem off_le (t : Fin cfg0.N) : 256 * t.val + 256 ≤ 32768 := by
  have h : t.val < 128 := lt_of_lt_of_eq t.isLt N_0
  omega

/-- The batch windows' block index at point t is (t, 0): decided over the grid. -/
theorem idx_rows : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_17.index t (0 : Fin 2) = t.val
    ∧ win0_17.index t (1 : Fin 2) = 0
    ∧ win0_18.index t (0 : Fin 2) = t.val
    ∧ win0_18.index t (1 : Fin 2) = 0
    ∧ win0_19.index t (0 : Fin 2) = t.val
    ∧ win0_19.index t (1 : Fin 2) = 0 :=
  (by decide +kernel : ∀ t : Fin grid0.N, _)

/-- The weight and bias windows' block index is zero at every point: decided over the grid. -/
theorem idx_whole : ∀ t : Fin cfg0.N, win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 1) = 0
    ∧ win0_8.index t (0 : Fin 2) = 0
    ∧ win0_8.index t (1 : Fin 2) = 0
    ∧ win0_9.index t (0 : Fin 1) = 0
    ∧ win0_10.index t (0 : Fin 2) = 0
    ∧ win0_10.index t (1 : Fin 2) = 0
    ∧ win0_11.index t (0 : Fin 1) = 0
    ∧ win0_12.index t (0 : Fin 2) = 0
    ∧ win0_12.index t (1 : Fin 2) = 0
    ∧ win0_13.index t (0 : Fin 1) = 0
    ∧ win0_14.index t (0 : Fin 1) = 0
    ∧ win0_15.index t (0 : Fin 1) = 0
    ∧ win0_16.index t (0 : Fin 1) = 0 :=
  (by decide +kernel : ∀ t : Fin grid0.N, _)

/-! ## The input windows' blocks -/

/-- Window 0's block at point `t`, at its literal shape. -/
abbrev blk0 (c : Dev nD) (t : Fin cfg0.N) : Vec Ideal S256x2 .f32 := iblk m c 0 t

/-- Window 1's block at point `t`, at its literal shape. -/
abbrev blk1 (c : Dev nD) (t : Fin cfg0.N) : Vec Ideal S256x896 .f32 := iblk m c 1 t

/-- Window 2's block at point `t`, at its literal shape. -/
abbrev blk2 (c : Dev nD) (t : Fin cfg0.N) : Vec Ideal S256x1 .f32 := iblk m c 2 t

/-- Window 3's block at point `t`, at its literal shape. -/
abbrev blk3 (c : Dev nD) (t : Fin cfg0.N) : Vec Ideal S896x2688 .bf16 := iblk m c 3 t

/-- Window 4's block at point `t`, at its literal shape. -/
abbrev blk4 (c : Dev nD) (t : Fin cfg0.N) : Vec Ideal S2x1344 .bf16 := iblk m c 4 t

/-- Window 5's block at point `t`, at its literal shape. -/
abbrev blk5 (c : Dev nD) (t : Fin cfg0.N) : Vec Ideal S3x1344 .bf16 := iblk m c 5 t

/-- Window 6's block at point `t`, at its literal shape. -/
abbrev blk6 (c : Dev nD) (t : Fin cfg0.N) : Vec Ideal S448x448 .bf16 := iblk m c 6 t

/-- Window 7's block at point `t`, at its literal shape. -/
abbrev blk7 (c : Dev nD) (t : Fin cfg0.N) : Vec Ideal S448 .f32 := iblk m c 7 t

/-- Window 8's block at point `t`, at its literal shape. -/
abbrev blk8 (c : Dev nD) (t : Fin cfg0.N) : Vec Ideal S448x256 .bf16 := iblk m c 8 t

/-- Window 9's block at point `t`, at its literal shape. -/
abbrev blk9 (c : Dev nD) (t : Fin cfg0.N) : Vec Ideal S256 .f32 := iblk m c 9 t

/-- Window 10's block at point `t`, at its literal shape. -/
abbrev blk10 (c : Dev nD) (t : Fin cfg0.N) : Vec Ideal S448x448 .bf16 := iblk m c 10 t

/-- Window 11's block at point `t`, at its literal shape. -/
abbrev blk11 (c : Dev nD) (t : Fin cfg0.N) : Vec Ideal S448 .f32 := iblk m c 11 t

/-- Window 12's block at point `t`, at its literal shape. -/
abbrev blk12 (c : Dev nD) (t : Fin cfg0.N) : Vec Ideal S448x256 .bf16 := iblk m c 12 t

/-- Window 13's block at point `t`, at its literal shape. -/
abbrev blk13 (c : Dev nD) (t : Fin cfg0.N) : Vec Ideal S256 .f32 := iblk m c 13 t

/-- Window 14's block at point `t`, at its literal shape. -/
abbrev blk14 (c : Dev nD) (t : Fin cfg0.N) : Vec Ideal S896 .f32 := iblk m c 14 t

/-- Window 15's block at point `t`, at its literal shape. -/
abbrev blk15 (c : Dev nD) (t : Fin cfg0.N) : Vec Ideal S896 .f32 := iblk m c 15 t

/-- Window 16's block at point `t`, at its literal shape. -/
abbrev blk16 (c : Dev nD) (t : Fin cfg0.N) : Vec Ideal S896 .f32 := iblk m c 16 t

theorem blk0_eq (hag : Agree m m') (c : Dev nD) (t : Fin cfg0.N) :
    blk0 m c t = rowWin (256 * t.val) (off_le t) (a0 m' c) := by
  funext y
  obtain ⟨e0_0, e0_1, e1_0, e1_1, e2_0, e2_1, e17_0, e17_1, e18_0, e18_1, e19_0, e19_1⟩ := idx_rows t
  show iblk m c 0 t y = _
  unfold iblk
  rw [View.read_apply]
  show V m c main_arg0 _ = _
  refine (congrFun (V_main_arg0 m c) _).trans ?_
  refine (congrFun (hag c).1.symm _).trans ?_
  refine congrArg (a0 m' c) (funext fun a => Fin.ext ?_)
  match a with
  | ⟨0, _⟩ => show win0_0.index t (0 : Fin 2) * 256 + 1 * (y 0).val = 256 * t.val + (y 0).val; omega
  | ⟨1, _⟩ => show win0_0.index t (1 : Fin 2) * 2 + 1 * (y 1).val = (y 1).val; omega

theorem blk1_eq (hag : Agree m m') (c : Dev nD) (t : Fin cfg0.N) :
    blk1 m c t = rowWin (256 * t.val) (off_le t) (a1 m' c) := by
  funext y
  obtain ⟨e0_0, e0_1, e1_0, e1_1, e2_0, e2_1, e17_0, e17_1, e18_0, e18_1, e19_0, e19_1⟩ := idx_rows t
  show iblk m c 1 t y = _
  unfold iblk
  rw [View.read_apply]
  show V m c main_arg1 _ = _
  refine (congrFun (V_main_arg1 m c) _).trans ?_
  refine (congrFun (hag c).2.1.symm _).trans ?_
  refine congrArg (a1 m' c) (funext fun a => Fin.ext ?_)
  match a with
  | ⟨0, _⟩ => show win0_1.index t (0 : Fin 2) * 256 + 1 * (y 0).val = 256 * t.val + (y 0).val; omega
  | ⟨1, _⟩ => show win0_1.index t (1 : Fin 2) * 896 + 1 * (y 1).val = (y 1).val; omega

theorem blk2_eq (hag : Agree m m') (c : Dev nD) (t : Fin cfg0.N) :
    blk2 m c t = rowWin (256 * t.val) (off_le t) (a2 m' c) := by
  funext y
  obtain ⟨e0_0, e0_1, e1_0, e1_1, e2_0, e2_1, e17_0, e17_1, e18_0, e18_1, e19_0, e19_1⟩ := idx_rows t
  show iblk m c 2 t y = _
  unfold iblk
  rw [View.read_apply]
  show V m c main_arg2 _ = _
  refine (congrFun (V_main_arg2 m c) _).trans ?_
  refine (congrFun (hag c).2.2.1.symm _).trans ?_
  refine congrArg (a2 m' c) (funext fun a => Fin.ext ?_)
  match a with
  | ⟨0, _⟩ => show win0_2.index t (0 : Fin 2) * 256 + 1 * (y 0).val = 256 * t.val + (y 0).val; omega
  | ⟨1, _⟩ => show win0_2.index t (1 : Fin 2) * 1 + 1 * (y 1).val = (y 1).val; omega

/-- The host casts the weight to the narrower format before the call. -/
theorem V_main_v0 (c : Dev nD) :
    @Eq (S896x2688.Idx → EReal) (V m c main_v0) (truncf (F := Ideal) (s := S896x2688) (φ := .f32) .bf16 (m ((c : Thread nD τ).loc main_arg3)) bitsLt_bf16_f32) := by
  dsimp only [V, hostOps0]; after_results

theorem blk3_eq (hag : Agree m m') (c : Dev nD) (t : Fin cfg0.N) :
    blk3 m c t = truncf .bf16 (a3 m' c) bitsLt_bf16_f32 := by
  funext y
  obtain ⟨z0, z1, z2, z3, z4, z5, z6, z7, z8, z9, z10, z11, z12, z13, z14, z15, z16, z17, z18, z19, z20⟩ := idx_whole t
  show iblk m c 3 t y = _
  unfold iblk
  rw [View.read_apply]
  show V m c main_v0 _ = _
  refine (congrFun (V_main_v0 m c) _).trans ?_
  show (m ((c : Thread nD τ).loc main_arg3) : S896x2688.Idx → EReal) _ = (a3 m' c) y
  refine (congrFun (hag c).2.2.2.1.symm _).trans ?_
  refine congrArg (a3 m' c) (funext fun a => Fin.ext ?_)
  match a with
  | ⟨0, _⟩ => show win0_3.index t (0 : Fin 2) * 896 + 1 * (y 0).val = (y 0).val; omega
  | ⟨1, _⟩ => show win0_3.index t (1 : Fin 2) * 2688 + 1 * (y 1).val = (y 1).val; omega

/-- The host casts the weight to the narrower format before the call. -/
theorem V_main_v1 (c : Dev nD) :
    @Eq (S2x1344.Idx → EReal) (V m c main_v1) (truncf (F := Ideal) (s := S2x1344) (φ := .f32) .bf16 (m ((c : Thread nD τ).loc main_arg4)) bitsLt_bf16_f32) := by
  dsimp only [V, hostOps0]; after_results

theorem blk4_eq (hag : Agree m m') (c : Dev nD) (t : Fin cfg0.N) :
    blk4 m c t = truncf .bf16 (a4 m' c) bitsLt_bf16_f32 := by
  funext y
  obtain ⟨z0, z1, z2, z3, z4, z5, z6, z7, z8, z9, z10, z11, z12, z13, z14, z15, z16, z17, z18, z19, z20⟩ := idx_whole t
  show iblk m c 4 t y = _
  unfold iblk
  rw [View.read_apply]
  show V m c main_v1 _ = _
  refine (congrFun (V_main_v1 m c) _).trans ?_
  show (m ((c : Thread nD τ).loc main_arg4) : S2x1344.Idx → EReal) _ = (a4 m' c) y
  refine (congrFun (hag c).2.2.2.2.1.symm _).trans ?_
  refine congrArg (a4 m' c) (funext fun a => Fin.ext ?_)
  match a with
  | ⟨0, _⟩ => show win0_4.index t (0 : Fin 2) * 2 + 1 * (y 0).val = (y 0).val; omega
  | ⟨1, _⟩ => show win0_4.index t (1 : Fin 2) * 1344 + 1 * (y 1).val = (y 1).val; omega

/-- The host casts the weight to the narrower format before the call. -/
theorem V_main_v2 (c : Dev nD) :
    @Eq (S3x1344.Idx → EReal) (V m c main_v2) (truncf (F := Ideal) (s := S3x1344) (φ := .f32) .bf16 (m ((c : Thread nD τ).loc main_arg5)) bitsLt_bf16_f32) := by
  dsimp only [V, hostOps0]; after_results

theorem blk5_eq (hag : Agree m m') (c : Dev nD) (t : Fin cfg0.N) :
    blk5 m c t = truncf .bf16 (a5 m' c) bitsLt_bf16_f32 := by
  funext y
  obtain ⟨z0, z1, z2, z3, z4, z5, z6, z7, z8, z9, z10, z11, z12, z13, z14, z15, z16, z17, z18, z19, z20⟩ := idx_whole t
  show iblk m c 5 t y = _
  unfold iblk
  rw [View.read_apply]
  show V m c main_v2 _ = _
  refine (congrFun (V_main_v2 m c) _).trans ?_
  show (m ((c : Thread nD τ).loc main_arg5) : S3x1344.Idx → EReal) _ = (a5 m' c) y
  refine (congrFun (hag c).2.2.2.2.2.1.symm _).trans ?_
  refine congrArg (a5 m' c) (funext fun a => Fin.ext ?_)
  match a with
  | ⟨0, _⟩ => show win0_5.index t (0 : Fin 2) * 3 + 1 * (y 0).val = (y 0).val; omega
  | ⟨1, _⟩ => show win0_5.index t (1 : Fin 2) * 1344 + 1 * (y 1).val = (y 1).val; omega

/-- The host casts the weight to the narrower format before the call. -/
theorem V_main_v3 (c : Dev nD) :
    @Eq (S448x448.Idx → EReal) (V m c main_v3) (truncf (F := Ideal) (s := S448x448) (φ := .f32) .bf16 (m ((c : Thread nD τ).loc main_arg6)) bitsLt_bf16_f32) := by
  dsimp only [V, hostOps0]; after_results

theorem blk6_eq (hag : Agree m m') (c : Dev nD) (t : Fin cfg0.N) :
    blk6 m c t = truncf .bf16 (a6 m' c) bitsLt_bf16_f32 := by
  funext y
  obtain ⟨z0, z1, z2, z3, z4, z5, z6, z7, z8, z9, z10, z11, z12, z13, z14, z15, z16, z17, z18, z19, z20⟩ := idx_whole t
  show iblk m c 6 t y = _
  unfold iblk
  rw [View.read_apply]
  show V m c main_v3 _ = _
  refine (congrFun (V_main_v3 m c) _).trans ?_
  show (m ((c : Thread nD τ).loc main_arg6) : S448x448.Idx → EReal) _ = (a6 m' c) y
  refine (congrFun (hag c).2.2.2.2.2.2.1.symm _).trans ?_
  refine congrArg (a6 m' c) (funext fun a => Fin.ext ?_)
  match a with
  | ⟨0, _⟩ => show win0_6.index t (0 : Fin 2) * 448 + 1 * (y 0).val = (y 0).val; omega
  | ⟨1, _⟩ => show win0_6.index t (1 : Fin 2) * 448 + 1 * (y 1).val = (y 1).val; omega

theorem blk7_eq (hag : Agree m m') (c : Dev nD) (t : Fin cfg0.N) :
    blk7 m c t = a7 m' c := by
  funext y
  obtain ⟨z0, z1, z2, z3, z4, z5, z6, z7, z8, z9, z10, z11, z12, z13, z14, z15, z16, z17, z18, z19, z20⟩ := idx_whole t
  show iblk m c 7 t y = _
  unfold iblk
  rw [View.read_apply]
  show V m c main_arg7 _ = _
  refine (congrFun (V_main_arg7 m c) _).trans ?_
  refine (congrFun (hag c).2.2.2.2.2.2.2.1.symm _).trans ?_
  refine congrArg (a7 m' c) (funext fun a => Fin.ext ?_)
  match a with
  | ⟨0, _⟩ => show win0_7.index t (0 : Fin 1) * 448 + 1 * (y 0).val = (y 0).val; omega

/-- The host casts the weight to the narrower format before the call. -/
theorem V_main_v4 (c : Dev nD) :
    @Eq (S448x256.Idx → EReal) (V m c main_v4) (truncf (F := Ideal) (s := S448x256) (φ := .f32) .bf16 (m ((c : Thread nD τ).loc main_arg8)) bitsLt_bf16_f32) := by
  dsimp only [V, hostOps0]; after_results

theorem blk8_eq (hag : Agree m m') (c : Dev nD) (t : Fin cfg0.N) :
    blk8 m c t = truncf .bf16 (a8 m' c) bitsLt_bf16_f32 := by
  funext y
  obtain ⟨z0, z1, z2, z3, z4, z5, z6, z7, z8, z9, z10, z11, z12, z13, z14, z15, z16, z17, z18, z19, z20⟩ := idx_whole t
  show iblk m c 8 t y = _
  unfold iblk
  rw [View.read_apply]
  show V m c main_v4 _ = _
  refine (congrFun (V_main_v4 m c) _).trans ?_
  show (m ((c : Thread nD τ).loc main_arg8) : S448x256.Idx → EReal) _ = (a8 m' c) y
  refine (congrFun (hag c).2.2.2.2.2.2.2.2.1.symm _).trans ?_
  refine congrArg (a8 m' c) (funext fun a => Fin.ext ?_)
  match a with
  | ⟨0, _⟩ => show win0_8.index t (0 : Fin 2) * 448 + 1 * (y 0).val = (y 0).val; omega
  | ⟨1, _⟩ => show win0_8.index t (1 : Fin 2) * 256 + 1 * (y 1).val = (y 1).val; omega

theorem blk9_eq (hag : Agree m m') (c : Dev nD) (t : Fin cfg0.N) :
    blk9 m c t = a9 m' c := by
  funext y
  obtain ⟨z0, z1, z2, z3, z4, z5, z6, z7, z8, z9, z10, z11, z12, z13, z14, z15, z16, z17, z18, z19, z20⟩ := idx_whole t
  show iblk m c 9 t y = _
  unfold iblk
  rw [View.read_apply]
  show V m c main_arg9 _ = _
  refine (congrFun (V_main_arg9 m c) _).trans ?_
  refine (congrFun (hag c).2.2.2.2.2.2.2.2.2.1.symm _).trans ?_
  refine congrArg (a9 m' c) (funext fun a => Fin.ext ?_)
  match a with
  | ⟨0, _⟩ => show win0_9.index t (0 : Fin 1) * 256 + 1 * (y 0).val = (y 0).val; omega

/-- The host casts the weight to the narrower format before the call. -/
theorem V_main_v5 (c : Dev nD) :
    @Eq (S448x448.Idx → EReal) (V m c main_v5) (truncf (F := Ideal) (s := S448x448) (φ := .f32) .bf16 (m ((c : Thread nD τ).loc main_arg10)) bitsLt_bf16_f32) := by
  dsimp only [V, hostOps0]; after_results

theorem blk10_eq (hag : Agree m m') (c : Dev nD) (t : Fin cfg0.N) :
    blk10 m c t = truncf .bf16 (a10 m' c) bitsLt_bf16_f32 := by
  funext y
  obtain ⟨z0, z1, z2, z3, z4, z5, z6, z7, z8, z9, z10, z11, z12, z13, z14, z15, z16, z17, z18, z19, z20⟩ := idx_whole t
  show iblk m c 10 t y = _
  unfold iblk
  rw [View.read_apply]
  show V m c main_v5 _ = _
  refine (congrFun (V_main_v5 m c) _).trans ?_
  show (m ((c : Thread nD τ).loc main_arg10) : S448x448.Idx → EReal) _ = (a10 m' c) y
  refine (congrFun (hag c).2.2.2.2.2.2.2.2.2.2.1.symm _).trans ?_
  refine congrArg (a10 m' c) (funext fun a => Fin.ext ?_)
  match a with
  | ⟨0, _⟩ => show win0_10.index t (0 : Fin 2) * 448 + 1 * (y 0).val = (y 0).val; omega
  | ⟨1, _⟩ => show win0_10.index t (1 : Fin 2) * 448 + 1 * (y 1).val = (y 1).val; omega

theorem blk11_eq (hag : Agree m m') (c : Dev nD) (t : Fin cfg0.N) :
    blk11 m c t = a11 m' c := by
  funext y
  obtain ⟨z0, z1, z2, z3, z4, z5, z6, z7, z8, z9, z10, z11, z12, z13, z14, z15, z16, z17, z18, z19, z20⟩ := idx_whole t
  show iblk m c 11 t y = _
  unfold iblk
  rw [View.read_apply]
  show V m c main_arg11 _ = _
  refine (congrFun (V_main_arg11 m c) _).trans ?_
  refine (congrFun (hag c).2.2.2.2.2.2.2.2.2.2.2.1.symm _).trans ?_
  refine congrArg (a11 m' c) (funext fun a => Fin.ext ?_)
  match a with
  | ⟨0, _⟩ => show win0_11.index t (0 : Fin 1) * 448 + 1 * (y 0).val = (y 0).val; omega

/-- The host casts the weight to the narrower format before the call. -/
theorem V_main_v6 (c : Dev nD) :
    @Eq (S448x256.Idx → EReal) (V m c main_v6) (truncf (F := Ideal) (s := S448x256) (φ := .f32) .bf16 (m ((c : Thread nD τ).loc main_arg12)) bitsLt_bf16_f32) := by
  dsimp only [V, hostOps0]; after_results

theorem blk12_eq (hag : Agree m m') (c : Dev nD) (t : Fin cfg0.N) :
    blk12 m c t = truncf .bf16 (a12 m' c) bitsLt_bf16_f32 := by
  funext y
  obtain ⟨z0, z1, z2, z3, z4, z5, z6, z7, z8, z9, z10, z11, z12, z13, z14, z15, z16, z17, z18, z19, z20⟩ := idx_whole t
  show iblk m c 12 t y = _
  unfold iblk
  rw [View.read_apply]
  show V m c main_v6 _ = _
  refine (congrFun (V_main_v6 m c) _).trans ?_
  show (m ((c : Thread nD τ).loc main_arg12) : S448x256.Idx → EReal) _ = (a12 m' c) y
  refine (congrFun (hag c).2.2.2.2.2.2.2.2.2.2.2.2.1.symm _).trans ?_
  refine congrArg (a12 m' c) (funext fun a => Fin.ext ?_)
  match a with
  | ⟨0, _⟩ => show win0_12.index t (0 : Fin 2) * 448 + 1 * (y 0).val = (y 0).val; omega
  | ⟨1, _⟩ => show win0_12.index t (1 : Fin 2) * 256 + 1 * (y 1).val = (y 1).val; omega

theorem blk13_eq (hag : Agree m m') (c : Dev nD) (t : Fin cfg0.N) :
    blk13 m c t = a13 m' c := by
  funext y
  obtain ⟨z0, z1, z2, z3, z4, z5, z6, z7, z8, z9, z10, z11, z12, z13, z14, z15, z16, z17, z18, z19, z20⟩ := idx_whole t
  show iblk m c 13 t y = _
  unfold iblk
  rw [View.read_apply]
  show V m c main_arg13 _ = _
  refine (congrFun (V_main_arg13 m c) _).trans ?_
  refine (congrFun (hag c).2.2.2.2.2.2.2.2.2.2.2.2.2.1.symm _).trans ?_
  refine congrArg (a13 m' c) (funext fun a => Fin.ext ?_)
  match a with
  | ⟨0, _⟩ => show win0_13.index t (0 : Fin 1) * 256 + 1 * (y 0).val = (y 0).val; omega

theorem blk14_eq (hag : Agree m m') (c : Dev nD) (t : Fin cfg0.N) :
    blk14 m c t = a14 m' c := by
  funext y
  obtain ⟨z0, z1, z2, z3, z4, z5, z6, z7, z8, z9, z10, z11, z12, z13, z14, z15, z16, z17, z18, z19, z20⟩ := idx_whole t
  show iblk m c 14 t y = _
  unfold iblk
  rw [View.read_apply]
  show V m c main_arg14 _ = _
  refine (congrFun (V_main_arg14 m c) _).trans ?_
  refine (congrFun (hag c).2.2.2.2.2.2.2.2.2.2.2.2.2.2.1.symm _).trans ?_
  refine congrArg (a14 m' c) (funext fun a => Fin.ext ?_)
  match a with
  | ⟨0, _⟩ => show win0_14.index t (0 : Fin 1) * 896 + 1 * (y 0).val = (y 0).val; omega

theorem blk15_eq (hag : Agree m m') (c : Dev nD) (t : Fin cfg0.N) :
    blk15 m c t = a15 m' c := by
  funext y
  obtain ⟨z0, z1, z2, z3, z4, z5, z6, z7, z8, z9, z10, z11, z12, z13, z14, z15, z16, z17, z18, z19, z20⟩ := idx_whole t
  show iblk m c 15 t y = _
  unfold iblk
  rw [View.read_apply]
  show V m c main_arg15 _ = _
  refine (congrFun (V_main_arg15 m c) _).trans ?_
  refine (congrFun (hag c).2.2.2.2.2.2.2.2.2.2.2.2.2.2.2.1.symm _).trans ?_
  refine congrArg (a15 m' c) (funext fun a => Fin.ext ?_)
  match a with
  | ⟨0, _⟩ => show win0_15.index t (0 : Fin 1) * 896 + 1 * (y 0).val = (y 0).val; omega

theorem blk16_eq (hag : Agree m m') (c : Dev nD) (t : Fin cfg0.N) :
    blk16 m c t = a16 m' c := by
  funext y
  obtain ⟨z0, z1, z2, z3, z4, z5, z6, z7, z8, z9, z10, z11, z12, z13, z14, z15, z16, z17, z18, z19, z20⟩ := idx_whole t
  show iblk m c 16 t y = _
  unfold iblk
  rw [View.read_apply]
  show V m c main_arg16 _ = _
  refine (congrFun (V_main_arg16 m c) _).trans ?_
  refine (congrFun (hag c).2.2.2.2.2.2.2.2.2.2.2.2.2.2.2.2.symm _).trans ?_
  refine congrArg (a16 m' c) (funext fun a => Fin.ext ?_)
  match a with
  | ⟨0, _⟩ => show win0_16.index t (0 : Fin 1) * 896 + 1 * (y 0).val = (y 0).val; omega

/-! ## Output window 17 -/

/-- What the window's array ends holding: the reference's result, as a function of the reference's arguments. -/
abbrev G17 (c : Dev nD) : S32768x256.Idx → EReal := Cert.ReferenceIdeal.Value.res_main_v57 (F := Ideal) m' c

/-- The window's block at point `t`, read off any contents of its array, is rows 256 t … 256 t + 255. -/
theorem read17 (t : Fin cfg0.N) (G : S32768x256.Idx → EReal) :
    ((cfg0.win 17).blk t).view.read (Elt Ideal) G = rowWin (256 * t.val) (off_le t) G := by
  funext y
  obtain ⟨e0_0, e0_1, e1_0, e1_1, e2_0, e2_1, e17_0, e17_1, e18_0, e18_1, e19_0, e19_1⟩ := idx_rows t
  rw [View.read_apply]
  refine congrArg G (funext fun a => Fin.ext ?_)
  match a with
  | ⟨0, _⟩ => show win0_17.index t (0 : Fin 2) * 256 + 1 * (y 0).val = 256 * t.val + (y 0).val; omega
  | ⟨1, _⟩ => show win0_17.index t (1 : Fin 2) * 256 + 1 * (y 1).val = (y 1).val; omega

/-- What point `t` writes back is rows 256 t … 256 t + 255 of the reference's result. -/
theorem flushed17_eq (hag : Agree m m') (c : Dev nD) (t : Fin cfg0.N) :
    (dats m 0 c).flushed 17 t = ((cfg0.win 17).blk t).view.read (Elt Ideal) (G17 m' c) := by
  rw [read17, Value.flushed17]
  unfold out0_17
  rw [View.canon_unit_zero hz2]
  simp only [View.ld_unit_zero (S := S256x896) hz2, View.ld_unit_zero (S := S256x2) hz2, View.ld_unit_zero (S := S256x1) hz2, View.ld_unit_zero (S := S896x2688) hz2, View.ld_unit_zero (S := S2x1344) hz2, View.ld_unit_zero (S := S3x1344) hz2, View.ld_unit_zero (S := S448x448) hz2, View.ld_unit_zero (S := S448x256) hz2, View.ld_unit_zero (S := S896) hz1, View.ld_unit_zero (S := S448) hz1, View.ld_unit_zero (S := S256) hz1]
  show (cfg0.win 17).cut (grid0.coords t) (k0_pay8 (blk1 m c t) (k0_pay5 (blk1 m c t) (blk0 m c t) (blk2 m c t) (blk3 m c t) (blk4 m c t) (blk5 m c t) (blk14 m c t)) (k0_pay6 (blk1 m c t) (blk0 m c t) (blk2 m c t) (blk3 m c t) (blk4 m c t) (blk5 m c t) (blk15 m c t)) (blk16 m c t) (blk6 m c t) (blk7 m c t) (blk8 m c t) (blk9 m c t)) = _
  rw [blk1_eq m m' hag, blk0_eq m m' hag, blk2_eq m m' hag, blk3_eq m m' hag, blk4_eq m m' hag, blk5_eq m m' hag, blk14_eq m m' hag, blk15_eq m m' hag, blk16_eq m m' hag, blk6_eq m m' hag, blk7_eq m m' hag, blk8_eq m m' hag, blk9_eq m m' hag]
  exact (coarse_rows (256 * t.val) (off_le t) m' c).symm

/-- An index of the array is in point `t`'s block iff each coordinate is in the block's range on its axis. -/
theorem mem_blk17 (t : Fin cfg0.N) (i : S32768x256.Idx) :
    i ∈ ((cfg0.win 17).blk t).view.set ↔ ∀ a : Fin 2, win0_17.index t a * S256x256.size a ≤ (i a).val ∧ (i a).val < win0_17.index t a * S256x256.size a + S256x256.size a := by
  show i ∈ ((View.whole main_v7_0).slice (win0_17.rect t)).set ↔ _
  rw [View.set_slice_whole, Rect.mem_set_unit]
  exact Iff.rfl

/-- Row i of the array lies in the block of point i / 256. -/
theorem cover17 (i : S32768x256.Idx) :
    ∃ t : Fin cfg0.N, (cfg0.win 17).flush t = true ∧ i ∈ ((cfg0.win 17).blk t).view.set := by
  have hi0 : (i 0).val < 32768 := (i 0).isLt
  have hi1 : (i 1).val < 256 := (i 1).isLt
  have hN : cfg0.N = 128 := N_0
  have ht : (i 0).val / 256 < cfg0.N := by rw [hN]; omega
  obtain ⟨e0_0, e0_1, e1_0, e1_1, e2_0, e2_1, e17_0, e17_1, e18_0, e18_1, e19_0, e19_1⟩ := idx_rows ⟨(i 0).val / 256, ht⟩
  refine ⟨⟨(i 0).val / 256, ht⟩, flush0_17 _, ?_⟩
  rw [mem_blk17]
  intro a
  match a with
  | ⟨0, _⟩ =>
    show win0_17.index ⟨(i 0).val / 256, ht⟩ (0 : Fin 2) * 256 ≤ (i 0).val ∧ (i 0).val < win0_17.index ⟨(i 0).val / 256, ht⟩ (0 : Fin 2) * 256 + 256
    rw [e17_0]; show (i 0).val / 256 * 256 ≤ (i 0).val ∧ (i 0).val < (i 0).val / 256 * 256 + 256; omega
  | ⟨1, _⟩ =>
    show win0_17.index ⟨(i 0).val / 256, ht⟩ (1 : Fin 2) * 256 ≤ (i 1).val ∧ (i 1).val < win0_17.index ⟨(i 0).val / 256, ht⟩ (1 : Fin 2) * 256 + 256
    rw [e17_1]; omega

/-- The array after the run is the reference's result. -/
theorem final17 (hag : Agree m m') (c : Dev nD) : (dats m 0 c).arrAt 17 cfg0.N = G17 m' c :=
  (dats m 0 c).arrAt_eq_of_cover 17 (G17 m' c) (fun t _ => flushed17_eq m m' hag c t) cover17

/-! ## Output window 18 -/

/-- What the window's array ends holding: the reference's result, as a function of the reference's arguments. -/
abbrev G18 (c : Dev nD) : S32768x256.Idx → EReal := Cert.ReferenceIdeal.Value.res_main_v66 (F := Ideal) m' c

/-- The window's block at point `t`, read off any contents of its array, is rows 256 t … 256 t + 255. -/
theorem read18 (t : Fin cfg0.N) (G : S32768x256.Idx → EReal) :
    ((cfg0.win 18).blk t).view.read (Elt Ideal) G = rowWin (256 * t.val) (off_le t) G := by
  funext y
  obtain ⟨e0_0, e0_1, e1_0, e1_1, e2_0, e2_1, e17_0, e17_1, e18_0, e18_1, e19_0, e19_1⟩ := idx_rows t
  rw [View.read_apply]
  refine congrArg G (funext fun a => Fin.ext ?_)
  match a with
  | ⟨0, _⟩ => show win0_18.index t (0 : Fin 2) * 256 + 1 * (y 0).val = 256 * t.val + (y 0).val; omega
  | ⟨1, _⟩ => show win0_18.index t (1 : Fin 2) * 256 + 1 * (y 1).val = (y 1).val; omega

/-- What point `t` writes back is rows 256 t … 256 t + 255 of the reference's result. -/
theorem flushed18_eq (hag : Agree m m') (c : Dev nD) (t : Fin cfg0.N) :
    (dats m 0 c).flushed 18 t = ((cfg0.win 18).blk t).view.read (Elt Ideal) (G18 m' c) := by
  rw [read18, Value.flushed18]
  unfold out0_18
  rw [View.canon_unit_zero hz2]
  simp only [View.ld_unit_zero (S := S256x896) hz2, View.ld_unit_zero (S := S256x2) hz2, View.ld_unit_zero (S := S256x1) hz2, View.ld_unit_zero (S := S896x2688) hz2, View.ld_unit_zero (S := S2x1344) hz2, View.ld_unit_zero (S := S3x1344) hz2, View.ld_unit_zero (S := S448x448) hz2, View.ld_unit_zero (S := S448x256) hz2, View.ld_unit_zero (S := S896) hz1, View.ld_unit_zero (S := S448) hz1, View.ld_unit_zero (S := S256) hz1]
  show (cfg0.win 18).cut (grid0.coords t) (k0_pay1 (k0_pay9 (blk1 m c t) (k0_pay5 (blk1 m c t) (blk0 m c t) (blk2 m c t) (blk3 m c t) (blk4 m c t) (blk5 m c t) (blk14 m c t)) (k0_pay6 (blk1 m c t) (blk0 m c t) (blk2 m c t) (blk3 m c t) (blk4 m c t) (blk5 m c t) (blk15 m c t)) (blk16 m c t) (blk10 m c t) (blk11 m c t)) (blk12 m c t) (blk13 m c t)) = _
  rw [blk1_eq m m' hag, blk0_eq m m' hag, blk2_eq m m' hag, blk3_eq m m' hag, blk4_eq m m' hag, blk5_eq m m' hag, blk14_eq m m' hag, blk15_eq m m' hag, blk16_eq m m' hag, blk10_eq m m' hag, blk11_eq m m' hag, blk12_eq m m' hag, blk13_eq m m' hag]
  exact (fine_rows (256 * t.val) (off_le t) m' c).symm

/-- An index of the array is in point `t`'s block iff each coordinate is in the block's range on its axis. -/
theorem mem_blk18 (t : Fin cfg0.N) (i : S32768x256.Idx) :
    i ∈ ((cfg0.win 18).blk t).view.set ↔ ∀ a : Fin 2, win0_18.index t a * S256x256.size a ≤ (i a).val ∧ (i a).val < win0_18.index t a * S256x256.size a + S256x256.size a := by
  show i ∈ ((View.whole main_v7_1).slice (win0_18.rect t)).set ↔ _
  rw [View.set_slice_whole, Rect.mem_set_unit]
  exact Iff.rfl

/-- Row i of the array lies in the block of point i / 256. -/
theorem cover18 (i : S32768x256.Idx) :
    ∃ t : Fin cfg0.N, (cfg0.win 18).flush t = true ∧ i ∈ ((cfg0.win 18).blk t).view.set := by
  have hi0 : (i 0).val < 32768 := (i 0).isLt
  have hi1 : (i 1).val < 256 := (i 1).isLt
  have hN : cfg0.N = 128 := N_0
  have ht : (i 0).val / 256 < cfg0.N := by rw [hN]; omega
  obtain ⟨e0_0, e0_1, e1_0, e1_1, e2_0, e2_1, e17_0, e17_1, e18_0, e18_1, e19_0, e19_1⟩ := idx_rows ⟨(i 0).val / 256, ht⟩
  refine ⟨⟨(i 0).val / 256, ht⟩, flush0_18 _, ?_⟩
  rw [mem_blk18]
  intro a
  match a with
  | ⟨0, _⟩ =>
    show win0_18.index ⟨(i 0).val / 256, ht⟩ (0 : Fin 2) * 256 ≤ (i 0).val ∧ (i 0).val < win0_18.index ⟨(i 0).val / 256, ht⟩ (0 : Fin 2) * 256 + 256
    rw [e18_0]; show (i 0).val / 256 * 256 ≤ (i 0).val ∧ (i 0).val < (i 0).val / 256 * 256 + 256; omega
  | ⟨1, _⟩ =>
    show win0_18.index ⟨(i 0).val / 256, ht⟩ (1 : Fin 2) * 256 ≤ (i 1).val ∧ (i 1).val < win0_18.index ⟨(i 0).val / 256, ht⟩ (1 : Fin 2) * 256 + 256
    rw [e18_1]; omega

/-- The array after the run is the reference's result. -/
theorem final18 (hag : Agree m m') (c : Dev nD) : (dats m 0 c).arrAt 18 cfg0.N = G18 m' c :=
  (dats m 0 c).arrAt_eq_of_cover 18 (G18 m' c) (fun t _ => flushed18_eq m m' hag c t) cover18

/-! ## Output window 19 -/

/-- What the window's array ends holding: the reference's result, as a function of the reference's arguments. -/
abbrev G19 (c : Dev nD) : S32768x896.Idx → EReal := Cert.ReferenceIdeal.Value.res_main_v46 (F := Ideal) m' c

/-- The window's block at point `t`, read off any contents of its array, is rows 256 t … 256 t + 255. -/
theorem read19 (t : Fin cfg0.N) (G : S32768x896.Idx → EReal) :
    ((cfg0.win 19).blk t).view.read (Elt Ideal) G = rowWin (256 * t.val) (off_le t) G := by
  funext y
  obtain ⟨e0_0, e0_1, e1_0, e1_1, e2_0, e2_1, e17_0, e17_1, e18_0, e18_1, e19_0, e19_1⟩ := idx_rows t
  rw [View.read_apply]
  refine congrArg G (funext fun a => Fin.ext ?_)
  match a with
  | ⟨0, _⟩ => show win0_19.index t (0 : Fin 2) * 256 + 1 * (y 0).val = 256 * t.val + (y 0).val; omega
  | ⟨1, _⟩ => show win0_19.index t (1 : Fin 2) * 896 + 1 * (y 1).val = (y 1).val; omega

/-- What point `t` writes back is rows 256 t … 256 t + 255 of the reference's result. -/
theorem flushed19_eq (hag : Agree m m') (c : Dev nD) (t : Fin cfg0.N) :
    (dats m 0 c).flushed 19 t = ((cfg0.win 19).blk t).view.read (Elt Ideal) (G19 m' c) := by
  rw [read19, Value.flushed19]
  unfold out0_19
  rw [View.canon_unit_zero hz2]
  simp only [View.ld_unit_zero (S := S256x896) hz2, View.ld_unit_zero (S := S256x2) hz2, View.ld_unit_zero (S := S256x1) hz2, View.ld_unit_zero (S := S896x2688) hz2, View.ld_unit_zero (S := S2x1344) hz2, View.ld_unit_zero (S := S3x1344) hz2, View.ld_unit_zero (S := S448x448) hz2, View.ld_unit_zero (S := S448x256) hz2, View.ld_unit_zero (S := S896) hz1, View.ld_unit_zero (S := S448) hz1, View.ld_unit_zero (S := S256) hz1]
  show (cfg0.win 19).cut (grid0.coords t) (k0_pay7 (blk1 m c t) (k0_pay5 (blk1 m c t) (blk0 m c t) (blk2 m c t) (blk3 m c t) (blk4 m c t) (blk5 m c t) (blk14 m c t)) (k0_pay6 (blk1 m c t) (blk0 m c t) (blk2 m c t) (blk3 m c t) (blk4 m c t) (blk5 m c t) (blk15 m c t)) (blk16 m c t)) = _
  rw [blk1_eq m m' hag, blk0_eq m m' hag, blk2_eq m m' hag, blk3_eq m m' hag, blk4_eq m m' hag, blk5_eq m m' hag, blk14_eq m m' hag, blk15_eq m m' hag, blk16_eq m m' hag]
  exact (hidden_rows (256 * t.val) (off_le t) m' c).symm

/-- An index of the array is in point `t`'s block iff each coordinate is in the block's range on its axis. -/
theorem mem_blk19 (t : Fin cfg0.N) (i : S32768x896.Idx) :
    i ∈ ((cfg0.win 19).blk t).view.set ↔ ∀ a : Fin 2, win0_19.index t a * S256x896.size a ≤ (i a).val ∧ (i a).val < win0_19.index t a * S256x896.size a + S256x896.size a := by
  show i ∈ ((View.whole main_v7_2).slice (win0_19.rect t)).set ↔ _
  rw [View.set_slice_whole, Rect.mem_set_unit]
  exact Iff.rfl

/-- Row i of the array lies in the block of point i / 256. -/
theorem cover19 (i : S32768x896.Idx) :
    ∃ t : Fin cfg0.N, (cfg0.win 19).flush t = true ∧ i ∈ ((cfg0.win 19).blk t).view.set := by
  have hi0 : (i 0).val < 32768 := (i 0).isLt
  have hi1 : (i 1).val < 896 := (i 1).isLt
  have hN : cfg0.N = 128 := N_0
  have ht : (i 0).val / 256 < cfg0.N := by rw [hN]; omega
  obtain ⟨e0_0, e0_1, e1_0, e1_1, e2_0, e2_1, e17_0, e17_1, e18_0, e18_1, e19_0, e19_1⟩ := idx_rows ⟨(i 0).val / 256, ht⟩
  refine ⟨⟨(i 0).val / 256, ht⟩, flush0_19 _, ?_⟩
  rw [mem_blk19]
  intro a
  match a with
  | ⟨0, _⟩ =>
    show win0_19.index ⟨(i 0).val / 256, ht⟩ (0 : Fin 2) * 256 ≤ (i 0).val ∧ (i 0).val < win0_19.index ⟨(i 0).val / 256, ht⟩ (0 : Fin 2) * 256 + 256
    rw [e19_0]; show (i 0).val / 256 * 256 ≤ (i 0).val ∧ (i 0).val < (i 0).val / 256 * 256 + 256; omega
  | ⟨1, _⟩ =>
    show win0_19.index ⟨(i 0).val / 256, ht⟩ (1 : Fin 2) * 896 ≤ (i 1).val ∧ (i 1).val < win0_19.index ⟨(i 0).val / 256, ht⟩ (1 : Fin 2) * 896 + 896
    rw [e19_1]; omega

/-- The array after the run is the reference's result. -/
theorem final19 (hag : Agree m m') (c : Dev nD) : (dats m 0 c).arrAt 19 cfg0.N = G19 m' c :=
  (dats m 0 c).arrAt_eq_of_cover 19 (G19 m' c) (fun t _ => flushed19_eq m m' hag c t) cover19

/-! ## The run, read -/

/-- The kernel's run: each result array at the reference's result, the arguments unchanged. -/
theorem run (hag : Agree m m') : θ_run defs (onTc (τ := τ) (main (F := Ideal))) ⟨m, fun _ => 0, ρ⟩ fun r => ∀ c : Dev nD,
      r.2.mem ((c : Thread nD τ).loc main_v7_0) = G17 m' c
      ∧ r.2.mem ((c : Thread nD τ).loc main_v7_1) = G18 m' c
      ∧ r.2.mem ((c : Thread nD τ).loc main_v7_2) = G19 m' c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final17 m m' hag c), (h c).2.1.trans (final18 m m' hag c),
      (h c).2.2.1.trans (final19 m m' hag c), (h c).2.2.2⟩)
    (Value.run_blocks m ρ)

end Cert.KernelValue

end
-- ==== Proof.lean ====
/-
  The certificate of the dual-path GRU cell: a kernel that handles the batch 256 rows at a grid point, against the
  whole-batch reference.

  Both programs compute, row by row of the batch, the gates u, r and the candidate e from the recurrent projection
  h · R_W and the two input projections, the new state u · h + (1 − u) · e, and from each half of the new state a
  two-layer projection with a rectifier in between. Every step reads one row of the batch tables and whole weight
  arrays, so 256 consecutive rows of each of the reference's results are the kernel body's stored values of the same
  256 rows of the inputs (Proof/BlockRows.lean, over the general lemmas of Proof/LibRowWindow.lean); the grid's 128
  row blocks tile each result array, so the kernel's run leaves the reference's results whole (Proof/KernelValue.lean).
  On the extended reals the kernel's narrower weight format is the identity, its one-operation logistic function is
  the reference's 1 / (1 + exp (−x)), and a product into a zero accumulator is the accumulator-free product: no law
  beyond these identities joins the two sides, and the precondition is not used.
  The three frames are the generated frame runs; the ideal pass rewrote nothing, so `preserves` is trivial.
-/
import proofs.«121208_j55327768708091_1_alg».proof.Defs
import proofs.«121208_j55327768708091_1_alg».proof.Proof.Gen.Kernel
import proofs.«121208_j55327768708091_1_alg».proof.Proof.Gen.Kernel.Skeleton
import proofs.«121208_j55327768708091_1_alg».proof.Proof.Gen.Kernel.Launch
import proofs.«121208_j55327768708091_1_alg».proof.Proof.Gen.Kernel.Points
import proofs.«121208_j55327768708091_1_alg».proof.Proof.Gen.Kernel.Frame
import proofs.«121208_j55327768708091_1_alg».proof.Proof.Gen.KernelIdeal
import proofs.«121208_j55327768708091_1_alg».proof.Proof.Gen.KernelIdeal.Skeleton
import proofs.«121208_j55327768708091_1_alg».proof.Proof.Gen.KernelIdeal.Launch
import proofs.«121208_j55327768708091_1_alg».proof.Proof.Gen.KernelIdeal.Points
import proofs.«121208_j55327768708091_1_alg».proof.Proof.Gen.KernelIdeal.Frame
import proofs.«121208_j55327768708091_1_alg».proof.Proof.Gen.ReferenceIdeal
import proofs.«121208_j55327768708091_1_alg».proof.Proof.Gen.Pre_finite_inputs
import proofs.«121208_j55327768708091_1_alg».proof.Proof.Gen.KernelIdeal.Value
import proofs.«121208_j55327768708091_1_alg».proof.Proof.Gen.ReferenceIdeal.Run
import proofs.«121208_j55327768708091_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The kernel's three result arrays end at the reference's three results of the reference's arguments, which are
    the kernel's; the reference's run ends there by its own statement. -/
theorem algebraic : Cert.algebraic_KernelIdeal_ReferenceIdeal := by
  intro m ρ m' ρ' _ hagree
  exact ⟨fun c => Cert.KernelValue.G17 m' c, fun c => Cert.KernelValue.G18 m' c, fun c => Cert.KernelValue.G19 m' c,
    Cert.KernelValue.run m ρ m' hagree, Cert.ReferenceIdeal.Value.run (F := Ideal) m' ρ'⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
